-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S100000 : Shape := ⟨1, ![100000]⟩
abbrev S64x1 : Shape := ⟨2, ![64, 1]⟩
abbrev S64x64 : Shape := ⟨2, ![64, 64]⟩
abbrev S64 : Shape := ⟨1, ![64]⟩
abbrev S65x2 : Shape := ⟨2, ![65, 2]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x1 : S_.BroadcastsInDim S64x1 (![] : Fin 0 → Fin S64x1.rank)
  reducesTo_S64x1_S_d0_1 : S64x1.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S65x2 : S_.BroadcastsInDim S65x2 (![] : Fin 0 → Fin S65x2.rank)
  reducesTo_S65x2_S_d0_1 : S65x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S2 .f32) (main_v33 : IVec S_ 1) : IVec S_ 1 :=
  let main_v34 : FVec F S2 .f32 := Host.absf main_arg9
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  main_v38

def fn_part1 {F : FTy → Type} [FloatOps F] (main_arg6 : FVec F S64x64 .f32) (main_arg7 : FVec F S64 .f32) (main_arg8 : FVec F S65x2 .f32) (main_arg9 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S65x2 .f32 := Host.absf main_arg8
  let main_cst_10 : FVec F S_ .f32 := constant S_ .f32 0x7F800000#32
  let main_v30 : FVec F S65x2 .f32 := broadcastInDim S65x2 ![] bcast_S_S65x2 main_cst_10
  let main_v31 : IVec S65x2 1 := cmpf .olt main_v29 main_v30
  let main_c_11 : IVec S_ 1 := constantI S_ 1 1#1
  let main_v32 : IVec S_ 1 := (fun x v => Host.reduce IntOp.andi x v reducesTo_S65x2_S_d0_1 h_S_) main_v31 main_c_11
  let main_v33 : IVec S_ 1 := andi main_v28 main_v32
  fn_part2 (F := F) main_arg9 main_v33

def fn {F : FTy → Type} [FloatOps F] (main_arg0 : FVec F S100000x64 .f32) (main_arg1 : IVec S2x1000000 32) (main_arg2 : IVec S100000 32) (main_arg3 : FVec F S64x1 .f32) (main_arg4 : FVec F S64x64 .f32) (main_arg5 : FVec F S64 .f32) (main_arg6 : FVec F S64x64 .f32) (main_arg7 : FVec F S64 .f32) (main_arg8 : FVec F S65x2 .f32) (main_arg9 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x1 .f32 := Host.absf main_arg3
  let main_cst_0 : FVec F S_ .f32 := constant S_ .f32 0x7F800000#32
  let main_v5 : FVec F S64x1 .f32 := broadcastInDim S64x1 ![] bcast_S_S64x1 main_cst_0
  let main_v6 : IVec S64x1 1 := cmpf .olt main_v4 main_v5
  let main_c_1 : IVec S_ 1 := constantI S_ 1 1#1
  let main_v7 : IVec S_ 1 := (fun x v => Host.reduce IntOp.andi x v reducesTo_S64x1_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_v13 main_v16
-- ==== Kernel.lean ====
abbrev S100000x64 : Shape := ⟨2, ![100000, 64]⟩
abbrev S2x1000000 : Shape := ⟨2, ![2, 1000000]⟩
abbrev S100000 : Shape := ⟨1, ![100000]⟩
abbrev S64x1 : Shape := ⟨2, ![64, 1]⟩
abbrev S64x64 : Shape := ⟨2, ![64, 64]⟩
abbrev S64 : Shape := ⟨1, ![64]⟩
abbrev S65x2 : Shape := ⟨2, ![65, 2]⟩
abbrev S2 : Shape := ⟨1, ![2]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S100000x1 : Shape := ⟨2, ![100000, 1]⟩
abbrev S10000x64 : Shape := ⟨2, ![10000, 64]⟩
abbrev S1000000x64 : Shape := ⟨2, ![1000000, 64]⟩
abbrev S10000x1 : Shape := ⟨2, ![10000, 1]⟩
abbrev S1x64 : Shape := ⟨2, ![1, 64]⟩
abbrev S64x65 : Shape := ⟨2, ![64, 65]⟩
abbrev S64x2 : Shape := ⟨2, ![64, 2]⟩
abbrev S1x2 : Shape := ⟨2, ![1, 2]⟩

abbrev nBuf : Space → Nat
  | .hbm => 88
  | .vmem => 33
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S100000, .i32⟩
  | .hbm, ⟨3, _⟩ => ⟨S64x1, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S65x2, .f32⟩
  | .hbm, ⟨9, _⟩ => ⟨S2, .f32⟩
  | .hbm, ⟨10, _⟩ => ⟨S1x1000000, .i32⟩
  | .hbm, ⟨11, _⟩ => ⟨S1000000, .i32⟩
  | .hbm, ⟨12, _⟩ => ⟨S1x1000000, .i32⟩
  | .hbm, ⟨13, _⟩ => ⟨S1000000, .i32⟩
  | .hbm, ⟨14, _⟩ => ⟨S_, .f32⟩
  | .hbm, ⟨15, _⟩ => ⟨S1000000, .f32⟩
  | .hbm, ⟨16, _⟩ => ⟨S_, .f32⟩
  | .hbm, ⟨17, _⟩ => ⟨S100000, .f32⟩
  | .hbm, ⟨18, _⟩ => ⟨S1000000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1000000, .i32⟩
  | .hbm, ⟨26, _⟩ => ⟨S1000000, .i1⟩
  | .hbm, ⟨27, _⟩ => ⟨S_, .i32⟩
  | .hbm, ⟨28, _⟩ => ⟨S1000000, .i32⟩
  | .hbm, ⟨29, _⟩ => ⟨S1000000, .i32⟩
  | .hbm, ⟨30, _⟩ => ⟨S1000000, .i32⟩
  | .hbm, ⟨31, _⟩ => ⟨S1000000x1, .i32⟩
  | .hbm, ⟨32, _⟩ => ⟨S1000000, .f32⟩
  | .hbm, ⟨33, _⟩ => ⟨S_, .i32⟩
  | .hbm, ⟨34, _⟩ => ⟨S1000000, .i32⟩
  | .hbm, ⟨35, _⟩ => ⟨S1000000, .i1⟩
  | .hbm, ⟨36, _⟩ => ⟨S_, .i32⟩
  | .hbm, ⟨37, _⟩ => ⟨S1000000, .i32⟩
  | .hbm, ⟨38, _⟩ => ⟨S1000000, .i32⟩
  | .hbm, ⟨39, _⟩ => ⟨S1000000, .i32⟩
  | .hbm, ⟨40, _⟩ => ⟨S1000000x1, .i32⟩
  | .hbm, ⟨41, _⟩ => ⟨S1000000, .f32⟩
  | .hbm, ⟨42, _⟩ => ⟨S1000000, .f32⟩
  | .hbm, ⟨43, _⟩ => ⟨S100000, .f32⟩
  | .hbm, ⟨44, _⟩ => ⟨S100000x1, .f32⟩
  | .hbm, ⟨45, _⟩ => ⟨S100000x1, .i32⟩
  | .hbm, ⟨46, _⟩ => ⟨S100000x64, .f32⟩
  | .hbm, ⟨47, _⟩ => ⟨S_, .i32⟩
  | .hbm, ⟨48, _⟩ => ⟨S1000000, .i32⟩
  | .hbm, ⟨49, _⟩ => ⟨S1000000, .i1⟩
  | .hbm, ⟨50, _⟩ => ⟨S_, .i32⟩
  | .hbm, ⟨51, _⟩ => ⟨S1000000, .i32⟩
  | .hbm, ⟨52, _⟩ => ⟨S1000000, .i32⟩
  | .hbm, ⟨53, _⟩ => ⟨S1000000, .i32⟩
  | .hbm, ⟨54, _⟩ => ⟨S1000000x1, .i32⟩
  | .hbm, ⟨55, _⟩ => ⟨S1000000x64, .f32⟩
  | .hbm, ⟨56, _⟩ => ⟨S1000000x1, .f32⟩
  | .hbm, ⟨57, _⟩ => ⟨S1000000x64, .f32⟩
  | .hbm, ⟨58, _⟩ => ⟨S1000000x64, .f32⟩
  | .hbm, ⟨59, _⟩ => ⟨S_, .f32⟩
  | .hbm, ⟨60, _⟩ => ⟨S100000x64, .f32⟩
  | .hbm, ⟨61, _⟩ => ⟨S1000000x1, .i32⟩
  | .hbm, ⟨62, _⟩ => ⟨S100000x64, .f32⟩
  | .hbm, ⟨63, _⟩ => ⟨S100000x64, .f32⟩
  | .hbm, ⟨64, _⟩ => ⟨S100000x64, .f32⟩
  | .hbm, ⟨65, _⟩ => ⟨S_, .i32⟩
  | .hbm, ⟨66, _⟩ => ⟨S1000000, .i32⟩
  | .hbm, ⟨67, _⟩ => ⟨S1000000, .i1⟩
  | .hbm, ⟨68, _⟩ => ⟨S_, .i32⟩
  | .hbm, ⟨69, _⟩ => ⟨S1000000, .i32⟩
  | .hbm, ⟨70, _⟩ => ⟨S1000000, .i32⟩
  | .hbm, ⟨71, _⟩ => ⟨S1000000, .i32⟩
  | .hbm, ⟨72, _⟩ => ⟨S1000000x1, .i32⟩
  | .hbm, ⟨73, _⟩ => ⟨S1000000x64, .f32⟩
  | .hbm, ⟨74, _⟩ => ⟨S1000000x1, .f32⟩
  | .hbm, ⟨75, _⟩ => ⟨S1000000x64, .f32⟩
  | .hbm, ⟨76, _⟩ => ⟨S1000000x64, .f32⟩
  | .hbm, ⟨77, _⟩ => ⟨S_, .f32⟩
  | .hbm, ⟨78, _⟩ => ⟨S100000x64, .f32⟩
  | .hbm, ⟨79, _⟩ => ⟨S1000000x1, .i32⟩
  | .hbm, ⟨80, _⟩ => ⟨S100000x64, .f32⟩
  | .hbm, ⟨81, _⟩ => ⟨S100000x64, .f32⟩
  | .hbm, ⟨82, _⟩ => ⟨S64x64, .f32⟩
  | .hbm, ⟨83, _⟩ => ⟨S64x65, .f32⟩
  | .hbm, ⟨84, _⟩ => ⟨S64x2, .f32⟩
  | .hbm, ⟨85, _⟩ => ⟨S1x2, .f32⟩
  | .hbm, ⟨86, _⟩ => ⟨S64x2, .f32⟩
  | .hbm, ⟨87, _⟩ => ⟨S64x2, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x1, .f32⟩
  | .local _ .vmem, ⟨24, _⟩ => ⟨S10000x1, .f32⟩
  | .local _ .vmem, ⟨25, _⟩ => ⟨S64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S10000x1, .i32⟩
  | .local _ .vmem, ⟨31, _⟩ => ⟨S10000x1, .i32⟩
  | .local _ .vmem, ⟨32, _⟩ => ⟨S64x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_8 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  shapeCasts_S100000_S100000x1 : S100000.ShapeCasts S100000x1
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  inb_S64_S64_0 : ∀ a, (![0] : Fin 1 → Nat) a + S64.size a ≤ S64.size a
  h_S64 : 0 < S64.numel
  shapeCasts_S64_S1x64 : S64.ShapeCasts S1x64
  shapeCasts_S1x64_S1x64 : S1x64.ShapeCasts S1x64
  broadcasts_S1x64_S10000x64 : S1x64.Broadcasts S10000x64
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  iota_S10000x64_d1_w32 : S10000x64.Iotas .tc 32 [1]
  natLt_1_32 : 1 < 32
  shapeCasts_S64x64_S64x64 : S64x64.ShapeCasts S64x64
  concatenates_S64x64_S64x1_S64x65_d1 : Shape.Concatenates [S64x64, S64x1] S64x65 1
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  scatter_S100000_S1000000x1_S1000000_n_0_0_1_wf : ScatterDims.WF S100000 S1000000x1 S1000000 [] [0] [0] 1
  gather_S100000_S1000000x1_S1000000_n_0_n_n_0_1_1_wf : GatherDims.WF S100000 S1000000x1 S1000000 [] [0] [] [0] [] 1 ![1]
  dot_S10000x64_S64x64_S10000x64_1_0_0_1_n_n_wf : DotDims.WF S10000x64 S64x64 S10000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S10000x64_S10000x64_S64x64_0_0_1_1_n_n_wf : DotDims.WF S10000x64 S10000x64 S64x64 [0] [0] [1] [1] [] []
  dot_S64x65_S65x2_S64x2_1_0_0_1_n_n_wf : DotDims.WF S64x65 S65x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S100000x64.size a
  hwx3_4 : ∀ i : grid3.Coords, EltTy.bits .f32 = 32 ∨ (Rect.block (s := S100000x64) S10000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S100000x1.size a
  hwx4_1 : ∀ i : grid4.Coords, EltTy.bits .i32 = 32 ∨ (Rect.block (s := S100000x1) S10000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S10000x64_S10000x64_S64x64_0_0_1_1_n_n : DotDims S10000x64 S10000x64 S64x64 where
  lhsContracting := [0]
  rhsContracting := [0]
  lhsNonContracting := [1]
  rhsNonContracting := [1]
  lhsBatch := []
  rhsBatch := []
  wf := dot_S10000x64_S10000x64_S64x64_0_0_1_1_n_n_wf
def dot_S64x65_S65x2_S64x2_1_0_0_1_n_n : DotDims S64x65 S65x2 S64x2 where
  lhsContracting := [1]
  rhsContracting := [0]
  lhsNonContracting := [0]
  rhsNonContracting := [1]
  lhsBatch := []
  rhsBatch := []
  wf := dot_S64x65_S65x2_S64x2_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg7) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S10000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v58) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v28) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v59) S64x64.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S100000 : Shape := ⟨1, ![100000]⟩
abbrev S64x1 : Shape := ⟨2, ![64, 1]⟩
abbrev S64x64 : Shape := ⟨2, ![64, 64]⟩
abbrev S64 : Shape := ⟨1, ![64]⟩
abbrev S65x2 : Shape := ⟨2, ![65, 2]⟩
abbrev S2 : Shape := ⟨1, ![2]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S100000x1 : Shape := ⟨2, ![100000, 1]⟩
abbrev S1x64 : Shape := ⟨2, ![1, 64]⟩
abbrev S64x65 : Shape := ⟨2, ![64, 65]⟩
abbrev S64x2 : Shape := ⟨2, ![64, 2]⟩
abbrev S1x2 : Shape := ⟨2, ![1, 2]⟩

abbrev nBuf : Space → Nat
  | .hbm => 141
  | .vmem => 0
  | .smem => 0
  | _ => 0

abbrev hbmTy0_0 (i : Nat) : BufTy := match i % 128 with
  | 0 => ⟨S100000x64, .f32⟩
  | 1 => ⟨S2x1000000, .i32⟩
  | 2 => ⟨S100000, .i32⟩
  | 3 => ⟨S64x1, .f32⟩
  | 4 => ⟨S64x64, .f32⟩
  | 5 => ⟨S64, .f32⟩
  | 6 => ⟨S64x64, .f32⟩
  | 7 => ⟨S64, .f32⟩
  | 8 => ⟨S65x2, .f32⟩
  | 9 => ⟨S2, .f32⟩
  | 10 => ⟨S100000x64, .f32⟩
  | 11 => ⟨S1x1000000, .i32⟩
  | 12 => ⟨S1000000, .i32⟩
  | 13 => ⟨S1x1000000, .i32⟩
  | 14 => ⟨S1000000, .i32⟩
  | 15 => ⟨S_, .f32⟩
  | 16 => ⟨S1000000, .f32⟩
  | 17 => ⟨S_, .f32⟩
  | 18 => ⟨S100000, .f32⟩
  | 19 => ⟨S1000000x1, .i32⟩
  | 20 => ⟨S100000, .f32⟩
  | 21 => ⟨S_, .f32⟩
  | 22 => ⟨S100000, .f32⟩
  | 23 => ⟨S100000, .f32⟩
  | 24 => ⟨S100000, .f32⟩
  | 25 => ⟨S_, .i32⟩
  | 26 => ⟨S1000000, .i32⟩
  | 27 => ⟨S1000000, .i1⟩
  | 28 => ⟨S_, .i32⟩
  | 29 => ⟨S1000000, .i32⟩
  | 30 => ⟨S1000000, .i32⟩
  | 31 => ⟨S1000000, .i32⟩
  | 32 => ⟨S1000000x1, .i32⟩
  | 33 => ⟨S1000000, .f32⟩
  | 34 => ⟨S_, .i32⟩
  | 35 => ⟨S1000000, .i32⟩
  | 36 => ⟨S1000000, .i1⟩
  | 37 => ⟨S_, .i32⟩
  | 38 => ⟨S1000000, .i32⟩
  | 39 => ⟨S1000000, .i32⟩
  | 40 => ⟨S1000000, .i32⟩
  | 41 => ⟨S1000000x1, .i32⟩
  | 42 => ⟨S1000000, .f32⟩
  | 43 => ⟨S1000000, .f32⟩
  | 44 => ⟨S_, .i32⟩
  | 45 => ⟨S1000000, .i32⟩
  | 46 => ⟨S1000000, .i1⟩
  | 47 => ⟨S_, .i32⟩
  | 48 => ⟨S1000000, .i32⟩
  | 49 => ⟨S1000000, .i32⟩
  | 50 => ⟨S1000000, .i32⟩
  | 51 => ⟨S1000000x1, .i32⟩
  | 52 => ⟨S1000000x64, .f32⟩
  | 53 => ⟨S1000000x1, .f32⟩
  | 54 => ⟨S1000000x64, .f32⟩
  | 55 => ⟨S1000000x64, .f32⟩
  | 56 => ⟨S_, .f32⟩
  | 57 => ⟨S100000x64, .f32⟩
  | 58 => ⟨S1000000x1, .i32⟩
  | 59 => ⟨S100000x64, .f32⟩
  | 60 => ⟨S100000, .f32⟩
  | 61 => ⟨S100000x1, .f32⟩
  | 62 => ⟨S100000x64, .f32⟩
  | 63 => ⟨S100000x64, .f32⟩
  | 64 => ⟨S100000x64, .f32⟩
  | 65 => ⟨S1x64, .f32⟩
  | 66 => ⟨S100000x64, .f32⟩
  | 67 => ⟨S100000x64, .f32⟩
  | 68 => ⟨S_, .f32⟩
  | 69 => ⟨S100000x64, .f32⟩
  | 70 => ⟨S100000x64, .f32⟩
  | 71 => ⟨S100000x64, .f32⟩
  | 72 => ⟨S1x1000000, .i32⟩
  | 73 => ⟨S1000000, .i32⟩
  | 74 => ⟨S1x1000000, .i32⟩
  | 75 => ⟨S1000000, .i32⟩
  | 76 => ⟨S_, .f32⟩
  | 77 => ⟨S1000000, .f32⟩
  | 78 => ⟨S_, .f32⟩
  | 79 => ⟨S100000, .f32⟩
  | 80 => ⟨S1000000x1, .i32⟩
  | 81 => ⟨S100000, .f32⟩
  | 82 => ⟨S_, .f32⟩
  | 83 => ⟨S100000, .f32⟩
  | 84 => ⟨S100000, .f32⟩
  | 85 => ⟨S100000, .f32⟩
  | 86 => ⟨S_, .i32⟩
  | 87 => ⟨S1000000, .i32⟩
  | 88 => ⟨S1000000, .i1⟩
  | 89 => ⟨S_, .i32⟩
  | 90 => ⟨S1000000, .i32⟩
  | 91 => ⟨S1000000, .i32⟩
  | 92 => ⟨S1000000, .i32⟩
  | 93 => ⟨S1000000x1, .i32⟩
  | 94 => ⟨S1000000, .f32⟩
  | 95 => ⟨S_, .i32⟩
  | 96 => ⟨S1000000, .i32⟩
  | 97 => ⟨S1000000, .i1⟩
  | 98 => ⟨S_, .i32⟩
  | 99 => ⟨S1000000, .i32⟩
  | 100 => ⟨S1000000, .i32⟩
  | 101 => ⟨S1000000, .i32⟩
  | 102 => ⟨S1000000x1, .i32⟩
  | 103 => ⟨S1000000, .f32⟩
  | 104 => ⟨S1000000, .f32⟩
  | 105 => ⟨S_, .i32⟩
  | 106 => ⟨S1000000, .i32⟩
  | 107 => ⟨S1000000, .i1⟩
  | 108 => ⟨S_, .i32⟩
  | 109 => ⟨S1000000, .i32⟩
  | 110 => ⟨S1000000, .i32⟩
  | 111 => ⟨S1000000, .i32⟩
  | 112 => ⟨S1000000x1, .i32⟩
  | 113 => ⟨S1000000x64, .f32⟩
  | 114 => ⟨S1000000x1, .f32⟩
  | 115 => ⟨S1000000x64, .f32⟩
  | 116 => ⟨S1000000x64, .f32⟩
  | 117 => ⟨S_, .f32⟩
  | 118 => ⟨S100000x64, .f32⟩
  | 119 => ⟨S1000000x1, .i32⟩
  | 120 => ⟨S100000x64, .f32⟩
  | 121 => ⟨S100000, .f32⟩
  | 122 => ⟨S100000x1, .f32⟩
  | 123 => ⟨S100000x64, .f32⟩
  | 124 => ⟨S100000x64, .f32⟩
  | 125 => ⟨S100000x64, .f32⟩
  | 126 => ⟨S1x64, .f32⟩
  | 127 => ⟨S100000x64, .f32⟩
  | _ => ⟨S100000x64, .f32⟩

abbrev hbmTy0_1 (i : Nat) : BufTy := match i % 128 with
  | 0 => ⟨S100000x64, .f32⟩
  | 1 => ⟨S_, .f32⟩
  | 2 => ⟨S100000x64, .f32⟩
  | 3 => ⟨S100000x64, .f32⟩
  | 4 => ⟨S_, .f32⟩
  | 5 => ⟨S64x64, .f32⟩
  | 6 => ⟨S100000x1, .i32⟩
  | 7 => ⟨S64x64, .f32⟩
  | 8 => ⟨S64x65, .f32⟩
  | 9 => ⟨S64x2, .f32⟩
  | 10 => ⟨S1x2, .f32⟩
  | 11 => ⟨S64x2, .f32⟩
  | 12 => ⟨S64x2, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call0_cst : Ref sig .tc := ⟨.hbm, 68, rfl⟩
abbrev main_call0_v0 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_8 : Ref sig .tc := ⟨.hbm, 76, rfl⟩
abbrev main_v54 : Ref sig .tc := ⟨.hbm, 77, rfl⟩
abbrev main_cst_9 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_10 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_11 : Ref sig .tc := ⟨.hbm, 86, rfl⟩
abbrev main_v61 : Ref sig .tc := ⟨.hbm, 87, rfl⟩
abbrev main_v62 : Ref sig .tc := ⟨.hbm, 88, rfl⟩
abbrev main_c_12 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_13 : Ref sig .tc := ⟨.hbm, 95, rfl⟩
abbrev main_v68 : Ref sig .tc := ⟨.hbm, 96, rfl⟩
abbrev main_v69 : Ref sig .tc := ⟨.hbm, 97, rfl⟩
abbrev main_c_14 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_c_15 : Ref sig .tc := ⟨.hbm, 105, rfl⟩
abbrev main_v76 : Ref sig .tc := ⟨.hbm, 106, rfl⟩
abbrev main_v77 : Ref sig .tc := ⟨.hbm, 107, rfl⟩
abbrev main_c_16 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_17 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_call1_cst : Ref sig .tc := ⟨.hbm, 129, rfl⟩
abbrev main_call1_v0 : Ref sig .tc := ⟨.hbm, 130, rfl⟩
abbrev main_v97 : Ref sig .tc := ⟨.hbm, 131, rfl⟩
abbrev main_cst_18 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  concatenates_S64x64_S64x1_S64x65_d1 : Shape.Concatenates [S64x64, S64x1] S64x65 1
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  dot_S100000x64_S64x64_S100000x64_1_0_0_1_n_n_wf : DotDims.WF S100000x64 S64x64 S100000x64 [1] [0] [0] [1] [] []
  scatter_S100000_S1000000x1_S1000000_n_0_0_1_wf : ScatterDims.WF S100000 S1000000x1 S1000000 [] [0] [0] 1
  gather_S100000_S1000000x1_S1000000_n_0_n_n_0_1_1_wf : GatherDims.WF S100000 S1000000x1 S1000000 [] [0] [] [0] [] 1 ![1]
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S64x64_S100000x1_S100000x64_1_0_0_1_wf : ScatterDims.WF S64x64 S100000x1 S100000x64 [1] [0] [0] 1
  dot_S64x65_S65x2_S64x2_1_0_0_1_n_n_wf : DotDims.WF S64x65 S65x2 S64x2 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def dot_S64x65_S65x2_S64x2_1_0_0_1_n_n : DotDims S64x65 S65x2 S64x2 where
  lhsContracting := [1]
  rhsContracting := [0]
  lhsNonContracting := [0]
  rhsNonContracting := [1]
  lhsBatch := []
  rhsBatch := []
  wf := dot_S64x65_S65x2_S64x2_1_0_0_1_n_n_wf

class Facts : Prop extends Facts₀ where

variable [Facts]
-- ==== Proof.RefRun.lean ====
/-
  The reference program's run and its operations read at an index, brought in for the value comparison.
-/
import proofs.«431064_j2465311228180_3_alg».proof.Proof.Gen.ReferenceIdeal.Run
import proofs.«431064_j2465311228180_3_alg».proof.Proof.Gen.ReferenceIdeal.Read
-- ==== Proof.Keep.lean ====
/-
  What each host stretch and each launch of the program leaves unchanged: a buffer that a stretch's operations do not
  write, and that is none of a launch's arrays, holds after it what it held before it.
-/
import proofs.«431064_j2465311228180_3_alg».proof.Proof.Gen.KernelIdeal.Frame

set_option maxRecDepth 16384

noncomputable section

namespace Cert.KernelIdeal.Keep

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The buffers the first stretch's operations write. -/
abbrev wr0 : List (Ref sig .tc) :=
  [main_v0, main_v1, main_v2, main_v3, main_cst, main_v4, main_cst_0, main_v5, main_v6, main_v7, main_cst_1, main_v8, main_v9,
   main_v10, main_c, main_v11, main_v12, main_c_2, main_v13, main_v14, main_v15, main_v16, main_v17, main_c_3, main_v18,
   main_v19, main_c_4, main_v20, main_v21, main_v22, main_v23, main_v24, main_v25, main_v26, main_v27, main_v28]
/-- The buffers the stretch between the first projection and the first node update writes. -/
abbrev wr1 : List (Ref sig .tc) :=
  [main_c_5, main_v30, main_v31, main_c_6, main_v32, main_v33, main_v34, main_v35, main_v36, main_v37, main_v38, main_v39,
   main_cst_7, main_v40, main_v41, main_v42]
/-- The buffers the stretch between the second projection and the second node update writes. -/
abbrev wr3 : List (Ref sig .tc) :=
  [main_c_8, main_v45, main_v46, main_c_9, main_v47, main_v48, main_v49, main_v50, main_v51, main_v52, main_v53, main_v54,
   main_cst_10, main_v55, main_v56, main_v57]

theorem writes0 : (hostOps0 : List (HloOp τ sig (Elt F))).Forall fun op => op.writes ⊆ (wr0.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem writes1 : (hostOps1 : List (HloOp τ sig (Elt F))).Forall fun op => op.writes ⊆ (wr1.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem writes3 : (hostOps3 : List (HloOp τ sig (Elt F))).Forall fun op => op.writes ⊆ (wr3.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- After the first stretch a buffer it does not write is as launched. -/
theorem W1_of (c : Dev nD) (r : Ref sig .tc) (h : r ∉ wr0) :
    W1 m ρ c (Proc.devRef .tc r) = m ((c : Thread nD τ).loc r) :=
  StableHlo.after_of_writes_sub hostOps0 _ writes0 h
/-- The second stretch keeps a buffer it does not write. -/
theorem W3_of (c : Dev nD) (r : Ref sig .tc) (h : r ∉ wr1) :
    W3 m ρ c (Proc.devRef .tc r) = W2 m ρ c (Proc.devRef .tc r) :=
  StableHlo.after_of_writes_sub hostOps1 _ writes1 h
/-- The third stretch keeps a buffer it does not write. -/
theorem W6_of (c : Dev nD) (r : Ref sig .tc) (h : r ∉ wr3) :
    W6 m ρ c (Proc.devRef .tc r) = W5 m ρ c (Proc.devRef .tc r) :=
  StableHlo.after_of_writes_sub hostOps3 _ writes3 h

end Cert.KernelIdeal.Keep

end
-- ==== Proof.Spec.lean ====
/-
  The three array functions the program's five launches compute, over the extended reals, index by index:
  a matrix product of a 100000 x 64 table by a 64 x 64 weight; the node update max(agg + h * d + b, 0) with d one
  number per row and b one number per column; and the pooled sum of the rows whose graph number is g.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- Entry (r, j) of the product: the sum over k of x (r, k) * w (k, j). -/
def mmS (x : FVec Ideal ⟨2, ![100000, 64]⟩ .f32) (w : FVec Ideal ⟨2, ![64, 64]⟩ .f32) :
    FVec Ideal ⟨2, ![100000, 64]⟩ .f32 :=
  fun i => ∑ k : Fin 64, x (ix2 (i 0) k) * w (ix2 k (i 1))

/-- Entry (r, j) of the node update: max (agg (r, j) + h (r, j) * d (r, 0) + b j) 0. -/
def nuS (agg h : FVec Ideal ⟨2, ![100000, 64]⟩ .f32) (d : FVec Ideal ⟨2, ![100000, 1]⟩ .f32)
    (b : FVec Ideal ⟨1, ![64]⟩ .f32) : FVec Ideal ⟨2, ![100000, 64]⟩ .f32 :=
  fun i => max (agg i + h i * d (ix2 (i 0) (0 : Fin 1)) + b (ix1 (i 1))) (0 : EReal)

/-- Entry (g, j) of the pooled sums: the sum, over the rows n whose graph word read signed is g, of h (n, j). -/
def poolS (h : FVec Ideal ⟨2, ![100000, 64]⟩ .f32) (bt : IVec ⟨2, ![100000, 1]⟩ 32) :
    FVec Ideal ⟨2, ![64, 64]⟩ .f32 :=
  fun i => ∑ n : Fin 100000, if (bt (ix2 n (0 : Fin 1))).toInt = ((i 0).val : ℤ) then h (ix2 n (i 1)) else 0

end Cert.Spec

end
-- ==== Proof.LibContract.lean ====
/-
  Two reads at an index over the extended reals, for matrices laid out as [rows, columns]: a matrix-unit product
  into a zero accumulator, and the host's contraction.
-/
import Idealize.ShloMosaic.PureOps.Ideal.Laws
import Idealize.ShloMosaic.Lib.ValueIdx

noncomputable section

namespace Cert.LibContract

open Idealize.ShloMosaic Idealize.ShloMosaic.ValueIdx
open scoped BigOperators

/-- The dimension numbers `[1] × [0]`, kept axes `[0]` and `[1]`, no batch axes, over any proof that they are
    well formed. -/
private abbrev lit {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ :=
  ⟨[1], [0], [0], [1], [], [], wf⟩

section Axes
variable {M K N : ℕ} (wf : DotDims.WF ⟨2, ![M, K]⟩ ⟨2, ![K, N]⟩ ⟨2, ![M, N]⟩ [1] [0] [0] [1] [] [])

/-- The left operand's kept axis reads the result's row. -/
private theorem lhs_0 (i : (⟨2, ![M, N]⟩ : Shape).Idx) (q : (lit wf).contr.Idx) :
    ((lit wf).lhsIdx i q 0).val = (i 0).val := by
  unfold DotDims.lhsIdx
  rw [dif_neg (show ¬(0 : Fin (⟨2, ![M, K]⟩ : Shape).rank) ∈ (lit wf).lhsBatch from List.not_mem_nil),
    dif_pos (show (0 : Fin (⟨2, ![M, K]⟩ : Shape).rank) ∈ (lit wf).lhsNonContracting from List.mem_singleton.mpr rfl)]
  rfl

/-- The left operand's contracted axis reads the contraction position. -/
private theorem lhs_1 (i : (⟨2, ![M, N]⟩ : Shape).Idx) (q : (lit wf).contr.Idx) :
    ((lit wf).lhsIdx i q 1).val = (q ⟨0, Nat.one_pos⟩).val :=
  (lit wf).lhsIdx_val_of_single rfl i q

/-- The right operand's contracted axis reads the contraction position. -/
private theorem rhs_0 (i : (⟨2, ![M, N]⟩ : Shape).Idx) (q : (lit wf).contr.Idx) :
    ((lit wf).rhsIdx i q 0).val = (q ⟨0, Nat.one_pos⟩).val :=
  (lit wf).rhsIdx_val_of_single rfl i q

/-- The right operand's kept axis reads the result's column. -/
private theorem rhs_1 (i : (⟨2, ![M, N]⟩ : Shape).Idx) (q : (lit wf).contr.Idx) :
    ((lit wf).rhsIdx i q 1).val = (i 1).val := by
  unfold DotDims.rhsIdx
  rw [dif_neg (show ¬(1 : Fin (⟨2, ![K, N]⟩ : Shape).rank) ∈ (lit wf).rhsBatch from List.not_mem_nil),
    dif_pos (show (1 : Fin (⟨2, ![K, N]⟩ : Shape).rank) ∈ (lit wf).rhsNonContracting from List.mem_singleton.mpr rfl)]
  rfl

/-- The contraction's sum over its one-axis index set is the sum over `Fin K`, the operands read at (r, k) and
    (k, j): re-index through the bijection of the one-axis index set with `Fin K`, then compare the operand
    indices axis by axis. -/
private theorem contr_lit {φ₁ φ₂ : FTy} (lhs : FVec Ideal ⟨2, ![M, K]⟩ φ₁) (rhs : FVec Ideal ⟨2, ![K, N]⟩ φ₂)
    (r : Fin M) (j : Fin N) :
    ∑ k : (lit wf).contr.Idx, lhs ((lit wf).lhsIdx (ix2 r j) k) * rhs ((lit wf).rhsIdx (ix2 r j) k)
      = ∑ k : Fin K, lhs (ix2 r k) * rhs (ix2 k j) := by
  rw [← Equiv.sum_comp (ValueIdx.contrEquiv1 (lit wf) K rfl rfl).symm]
  refine Finset.sum_congr rfl fun k _ => ?_
  have hk := ValueIdx.contrEquiv1_symm_val (lit wf) K rfl rfl k
  have el : (lit wf).lhsIdx (ix2 r j) ((ValueIdx.contrEquiv1 (lit wf) K rfl rfl).symm k) = ix2 r k :=
    funext fun a => Fin.ext (by
      match a with
      | ⟨0, _⟩ => exact lhs_0 wf _ _
      | ⟨1, _⟩ => exact (lhs_1 wf _ _).trans hk)
  have er : (lit wf).rhsIdx (ix2 r j) ((ValueIdx.contrEquiv1 (lit wf) K rfl rfl).symm k) = ix2 k j :=
    funext fun a => Fin.ext (by
      match a with
      | ⟨0, _⟩ => exact (rhs_0 wf _ _).trans hk
      | ⟨1, _⟩ => exact rhs_1 wf _ _)
  rw [el, er]

end Axes

/-- The same for any dimension numbers whose six lists are those: the record is then that literal one. -/
private theorem contr_plain {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (lhs : FVec Ideal ⟨2, ![M, K]⟩ φ₁) (rhs : FVec Ideal ⟨2, ![K, N]⟩ φ₂) (r : Fin M) (j : Fin N) :
    ∑ k : d.contr.Idx, lhs (d.lhsIdx (ix2 r j) k) * rhs (d.rhsIdx (ix2 r j) k)
      = ∑ k : Fin K, lhs (ix2 r k) * rhs (ix2 k j) := by
  obtain ⟨lc, rc, ln, rn, lb, rb, wf⟩ := d
  simp only at hlc hrc hln hrn hlb hrb
  subst hlc hrc hln hrn hlb hrb
  exact contr_lit wf lhs rhs r j

/-- The product of an [M, K] by a [K, N] matrix (contraction of the left operand's axis 1 with the right
    operand's axis 0, no batch axes), accumulated into zeros and read at (r, j): `∑ k, lhs (r, k) · rhs (k, j)`. -/
theorem matmul_plain {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (j : Fin N) :
    matmul d prec lhs rhs (constant ⟨2, ![M, N]⟩ .f32 0x00000000#32) (ix2 r j)
      = ∑ k : Fin K, lhs (ix2 r k) * rhs (ix2 k j) := by
  simp only [matmul]
  rw [Ideal.matmul_constant_zero_apply]
  exact contr_plain d hlc hrc hln hrn hlb hrb lhs rhs r j

/-- The host's contraction of the same layout, read at (r, j): the same sum. -/
theorem dotGeneral_plain {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (j : Fin N) :
    Host.dotGeneral d prec lhs rhs (ix2 r j) = ∑ k : Fin K, lhs (ix2 r k) * rhs (ix2 k j) := by
  simp only [Host.dotGeneral]
  rw [Ideal.dotGeneral_apply]
  exact contr_plain d hlc hrc hln hrn hlb hrb lhs rhs r j

end Cert.LibContract

end
-- ==== Proof.LibScatterRows.lean ====
/-
  The host's accumulating scatter over the extended reals, read at an index, for the two layouts a segment sum
  prints as: a vector of N sums fed by E scalars, and an N x C table of sums fed by E rows of C entries; in both
  the scatter indices are an E x 1 column naming, per update, the operand's position on axis 0. An update lands at
  the position its index names, read signed; an index outside [0, N) drops its update.
-/
import Idealize.ShloMosaic.PureOps.Ideal
import Idealize.ShloMosaic.PureOps.Contract
import Idealize.ShloMosaic.Lib.ValueIdx

set_option maxRecDepth 16384

noncomputable section

namespace Cert.LibScatterRows

open Idealize.ShloMosaic Idealize.ShloMosaic.ValueIdx
open scoped BigOperators

/-- An accumulating scatter's update lands at operand index `i` exactly when, on every axis, the window's start plus
    the window coordinate is `i`'s coordinate. -/
private theorem resultIdx?_eq_some_iff {s si u : Shape} {w : ℕ} (d : ScatterDims s si u) (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have h1 : (d.start j idx a + (d.window j a : ℤ)).toNat = (i a).val := congrArg Fin.val (congrFun hf a)
      have := h a
      omega
    · intro hf
      funext a
      apply Fin.ext
      have := hf a
      show (d.start j idx a + (d.window j a : ℤ)).toNat = (i a).val
      omega
  · rename_i h
    constructor
    · intro hf
      exact absurd hf (by simp)
    · intro hf
      exfalso
      apply h
      intro a
      have := hf a
      have := (i a).isLt
      omega

/-- A rank-1 index set is its one coordinate's range. -/
private def idxEquiv1 {n : ℕ} : (⟨1, ![n]⟩ : Shape).Idx ≃ Fin n where
  toFun i := i 0
  invFun a := ix1 a
  left_inv i := (eq_ix1 i).symm
  right_inv _ := rfl

/-- A sum over a rank-1 index set is the sum over the coordinate. -/
private theorem sum_idx1 {M : Type*} [AddCommMonoid M] {n : ℕ} (f : (⟨1, ![n]⟩ : Shape).Idx → M) :
    ∑ i, f i = ∑ a : Fin n, f (ix1 a) :=
  (Equiv.sum_comp (idxEquiv1 (n := n)).symm f).symm

/-! ### The vector layout -/

/-- The vector layout's dimension numbers as a literal record, over any proof that they are well formed. -/
private abbrev litV {N E : ℕ} (wf : ScatterDims.WF ⟨1, ![N]⟩ ⟨2, ![E, 1]⟩ ⟨1, ![E]⟩ [] [0] [0] 1) :
    ScatterDims ⟨1, ![N]⟩ ⟨2, ![E, 1]⟩ ⟨1, ![E]⟩ :=
  ⟨[], [0], [0], 1, wf⟩

section Vec
variable {N E w : ℕ} (wf : ScatterDims.WF ⟨1, ![N]⟩ ⟨2, ![E, 1]⟩ ⟨1, ![E]⟩ [] [0] [0] 1)

/-- Update e reads row e of the column of indices. -/
private theorem siIdx_V (j : (⟨1, ![E]⟩ : Shape).Idx) (c : Fin (litV wf).scatterDimsToOperandDims.length) :
    (litV wf).siIdx j c = ix2 (j 0) (0 : Fin 1) := by
  funext b
  match b with
  | ⟨0, _⟩ =>
    unfold ScatterDims.siIdx
    rw [dif_neg (by exact Nat.zero_ne_one)]
    unfold ScatterDims.siCoord
    apply Fin.ext
    simp only [Fin.val_cast]
    rfl
  | ⟨1, _⟩ =>
    unfold ScatterDims.siIdx
    rw [dif_pos rfl]
    apply Fin.ext
    show c.val = 0
    have : c.val < 1 := c.isLt
    omega

/-- On axis 0 the window starts at the index word, read signed. -/
private theorem start_V0 (j : (⟨1, ![E]⟩ : Shape).Idx) (idx : IVec ⟨2, ![E, 1]⟩ w) :
    (litV wf).start j idx 0 = (idx (ix2 (j 0) (0 : Fin 1))).toInt := by
  unfold ScatterDims.start
  rw [dif_pos (show (0 : Fin (⟨1, ![N]⟩ : Shape).rank) ∈ (litV wf).scatterDimsToOperandDims from List.mem_singleton.mpr rfl)]
  rw [siIdx_V]
  rfl

/-- Axis 0 is inserted: no window coordinate. -/
private theorem window_V0 (j : (⟨1, ![E]⟩ : Shape).Idx) : (litV wf).window j 0 = 0 := by
  unfold ScatterDims.window
  rw [dif_neg (show ¬(0 : Fin (⟨1, ![N]⟩ : Shape).rank) ∈ (litV wf).sKept from List.not_mem_nil)]

/-- Update j lands at position r exactly when its index word, read signed, is r. -/
private theorem lands_V (j : (⟨1, ![E]⟩ : Shape).Idx) (idx : IVec ⟨2, ![E, 1]⟩ w) (r : Fin N) :
    (litV wf).resultIdx? j idx = some (ix1 r) ↔ (idx (ix2 (j 0) (0 : Fin 1))).toInt = (r.val : ℤ) := by
  rw [resultIdx?_eq_some_iff]
  constructor
  · intro h
    have h0 := h 0
    rw [start_V0, window_V0] at h0
    simp only [Nat.cast_zero, add_zero] at h0
    exact h0
  · intro h a
    match a with
    | ⟨0, _⟩ =>
      have e1 := start_V0 wf j idx
      have e2 := window_V0 wf j
      show (litV wf).start j idx 0 + (((litV wf).window j 0 : ℕ) : ℤ) = (r.val : ℤ)
      rw [e1, e2, h]
      simp

end Vec

/-! ### The table layout -/

/-- The table layout's dimension numbers as a literal record, over any proof that they are well formed. -/
private abbrev litT {N C E : ℕ} (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  ⟨[1], [0], [0], 1, wf⟩

section Tab
variable {N C E w : ℕ} (wf : ScatterDims.WF ⟨2, ![N, C]⟩ ⟨2, ![E, 1]⟩ ⟨2, ![E, C]⟩ [1] [0] [0] 1)

/-- The row (e, ·) of updates reads row e of the column of indices. -/
private theorem siIdx_T (j : (⟨2, ![E, C]⟩ : Shape).Idx) (c : Fin (litT wf).scatterDimsToOperandDims.length) :
    (litT wf).siIdx j c = ix2 (j 0) (0 : Fin 1) := by
  funext b
  match b with
  | ⟨0, _⟩ =>
    unfold ScatterDims.siIdx
    rw [dif_neg (by exact Nat.zero_ne_one)]
    unfold ScatterDims.siCoord
    apply Fin.ext
    simp only [Fin.val_cast]
    rfl
  | ⟨1, _⟩ =>
    unfold ScatterDims.siIdx
    rw [dif_pos rfl]
    apply Fin.ext
    show c.val = 0
    have : c.val < 1 := c.isLt
    omega

/-- The operand's one axis that is not inserted is axis 1. -/
private theorem sKept_T : (litT wf).sKept = [1] := rfl

/-- On axis 0 the window starts at the index word, read signed. -/
private theorem start_T0 (j : (⟨2, ![E, C]⟩ : Shape).Idx) (idx : IVec ⟨2, ![E, 1]⟩ w) :
    (litT wf).start j idx 0 = (idx (ix2 (j 0) (0 : Fin 1))).toInt := by
  unfold ScatterDims.start
  rw [dif_pos (show (0 : Fin (⟨2, ![N, C]⟩ : Shape).rank) ∈ (litT wf).scatterDimsToOperandDims from List.mem_singleton.mpr rfl)]
  rw [siIdx_T]
  rfl

/-- Axis 1 is named by no index: its window starts at 0. -/
private theorem start_T1 (j : (⟨2, ![E, C]⟩ : Shape).Idx) (idx : IVec ⟨2, ![E, 1]⟩ w) :
    (litT wf).start j idx 1 = 0 := by
  unfold ScatterDims.start
  rw [dif_neg (show ¬(1 : Fin (⟨2, ![N, C]⟩ : Shape).rank) ∈ (litT wf).scatterDimsToOperandDims by
    rw [List.mem_singleton]; intro e; exact Nat.one_ne_zero (congrArg Fin.val e))]

/-- Axis 0 is inserted: no window coordinate. -/
private theorem window_T0 (j : (⟨2, ![E, C]⟩ : Shape).Idx) : (litT wf).window j 0 = 0 := by
  unfold ScatterDims.window
  rw [dif_neg (show ¬(0 : Fin (⟨2, ![N, C]⟩ : Shape).rank) ∈ (litT wf).sKept by
    rw [sKept_T, List.mem_singleton]; intro e; exact Nat.zero_ne_one (congrArg Fin.val e))]

/-- Axis 1 is the window axis: its window coordinate is the update's column. -/
private theorem window_T1 (j : (⟨2, ![E, C]⟩ : Shape).Idx) : (litT wf).window j 1 = (j 1).val := by
  unfold ScatterDims.window
  rw [dif_pos (show (1 : Fin (⟨2, ![N, C]⟩ : Shape).rank) ∈ (litT wf).sKept by
    rw [sKept_T]; exact List.mem_singleton.mpr rfl)]
  rfl

/-- Update (e, c') lands at (r, c) exactly when e's index word, read signed, is r and c' is c. -/
private theorem lands_T (j : (⟨2, ![E, C]⟩ : Shape).Idx) (idx : IVec ⟨2, ![E, 1]⟩ w) (r : Fin N) (c : Fin C) :
    (litT wf).resultIdx? j idx = some (ix2 r c)
      ↔ (idx (ix2 (j 0) (0 : Fin 1))).toInt = (r.val : ℤ) ∧ (j 1).val = c.val := by
  rw [resultIdx?_eq_some_iff]
  constructor
  · intro h
    have h0 := h 0
    have h1 := h 1
    rw [start_T0, window_T0] at h0
    rw [start_T1, window_T1] at h1
    simp only [Nat.cast_zero, add_zero] at h0
    have h1' : ((j 1).val : ℤ) = (c.val : ℤ) := by
      simp only [zero_add] at h1
      exact h1
    exact ⟨h0, by exact_mod_cast h1'⟩
  · intro h a
    match a with
    | ⟨0, _⟩ =>
      have e1 := start_T0 wf j idx
      have e2 := window_T0 wf j
      show (litT wf).start j idx 0 + (((litT wf).window j 0 : ℕ) : ℤ) = (r.val : ℤ)
      rw [e1, e2, h.1]
      simp
    | ⟨1, _⟩ =>
      have e1 := start_T1 wf j idx
      have e2 := window_T1 wf j
      show (litT wf).start j idx 1 + (((litT wf).window j 1 : ℕ) : ℤ) = (c.val : ℤ)
      rw [e1, e2, h.2]
      simp

end Tab

/-- A VECTOR of sums. Operand [N], scatter indices [E, 1], updates [E]; no window axis, axis 0 inserted and named by
    the index vector's one component. Entry r is the operand's entry plus the sum of the updates whose index is r. -/
theorem scatterAdd_vec_apply {N E w : ℕ} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1)
    (x : FVec Ideal ⟨1, ![N]⟩ .f32) (idx : IVec ⟨2, ![E, 1]⟩ w) (upd : FVec Ideal ⟨1, ![E]⟩ .f32) (r : Fin N) :
    Host.scatterAdd (F := Ideal) d x idx upd (ix1 r)
      = x (ix1 r) + ∑ e : Fin E, if (idx (ix2 e (0 : Fin 1))).toInt = (r.val : ℤ) then upd (ix1 e) else 0 := by
  obtain ⟨uw, iw, sd, iv, wf⟩ := d
  simp only at huw hiw hsd hiv
  subst huw hiw hsd hiv
  simp only [Host.scatterAdd, Ideal.hostScatterAdd_def, Ideal.hostScatterAdd]
  congr 1
  rw [Finset.sum_filter, sum_idx1]
  refine Finset.sum_congr rfl fun e _ => ?_
  exact if_congr (lands_V wf (ix1 e) idx r) rfl rfl

/-- A TABLE of row sums. Operand [N, C], scatter indices [E, 1], updates [E, C]; the updates' axis 1 is the window
    axis, the operand's axis 0 is inserted and named by the index vector's one component. Entry (r, j) is the
    operand's entry plus the sum, over the updates whose index is r, of their entry j. -/
theorem scatterAdd_rows_apply {N C E w : ℕ} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1)
    (x : FVec Ideal ⟨2, ![N, C]⟩ .f32) (idx : IVec ⟨2, ![E, 1]⟩ w) (upd : FVec Ideal ⟨2, ![E, C]⟩ .f32) (r : Fin N) (j : Fin C) :
    Host.scatterAdd (F := Ideal) d x idx upd (ix2 r j)
      = x (ix2 r j) + ∑ e : Fin E, if (idx (ix2 e (0 : Fin 1))).toInt = (r.val : ℤ) then upd (ix2 e j) else 0 := by
  obtain ⟨uw, iw, sd, iv, wf⟩ := d
  simp only at huw hiw hsd hiv
  subst huw hiw hsd hiv
  simp only [Host.scatterAdd, Ideal.hostScatterAdd_def, Ideal.hostScatterAdd]
  congr 1
  rw [Finset.sum_filter, sum_idx2]
  refine Finset.sum_congr rfl fun e _ => ?_
  -- the inner sum over the update's column keeps the one column j
  by_cases he : (idx (ix2 e (0 : Fin 1))).toInt = (r.val : ℤ)
  · rw [if_pos he]
    rw [Finset.sum_eq_single j]
    · exact if_pos ((lands_T wf (ix2 e j) idx r j).mpr ⟨he, rfl⟩)
    · intro c' _ hc'
      exact if_neg fun h => hc' (Fin.ext ((lands_T wf (ix2 e c') idx r j).mp h).2)
    · intro h
      exact absurd (Finset.mem_univ j) h
  · rw [if_neg he]
    refine Finset.sum_eq_zero fun c' _ => ?_
    exact if_neg fun h => he ((lands_T wf (ix2 e c') idx r j).mp h).1

end Cert.LibScatterRows

end
-- ==== Proof.RefStages.lean ====
/-
  The reference program's stages as the three array functions: its two contractions are the matrix product, its two
  rectified layers the node update, its accumulating scatter by graph number the pooled sum; its two edge aggregations
  are one function of the projected features, and its last three operations one function of the pooled sums.
-/
import proofs.«431064_j2465311228180_3_alg».proof.Proof.RefRun
import proofs.«431064_j2465311228180_3_alg».proof.Proof.Spec
import proofs.«431064_j2465311228180_3_alg».proof.Proof.LibContract
import proofs.«431064_j2465311228180_3_alg».proof.Proof.LibScatterRows

set_option maxRecDepth 16384

noncomputable section

namespace Cert.ReferenceIdeal.Stages

open Cert.ReferenceIdeal Cert.ReferenceIdeal.Gen Cert.ReferenceIdeal.Read Idealize.ShloMosaic Idealize.ShloMosaic.TcCoe Idealize.ShloMosaic.ValueIdx
open scoped BigOperators

variable {F : FTy → Type} [FloatOps F]

/-- The edge aggregation as a function of the projected features h: row r is the sum, over the edges whose destination
    is r, of the source's row of h scaled by the edge's normalisation. -/
def agg (h : (⟨S100000x64, .f32⟩ : BufTy).Contents (Elt F)) (x1 : (⟨S2x1000000, .i32⟩ : BufTy).Contents (Elt F)) :
    (⟨S100000x64, .f32⟩ : BufTy).Contents (Elt F) :=
  Host.scatterAdd scatter_S100000x64_S1000000x1_S1000000x64_1_0_0_1 (val_main_v37 (F := F)) (val_main_v38 (F := F) x1)
    (mulf (Host.gather gather_S100000x64_S1000000x1_S1000000x64_1_0_n_n_0_1_164 h (val_main_v32 (F := F) x1)) (val_main_v35 (F := F) x1))

/-- The first layer's aggregation is that function of the first projection. -/
theorem v39_eq (x0 : (⟨S100000x64, .f32⟩ : BufTy).Contents (Elt F)) (x1 : (⟨S2x1000000, .i32⟩ : BufTy).Contents (Elt F))
    (x4 : (⟨S64x64, .f32⟩ : BufTy).Contents (Elt F)) :
    val_main_v39 (F := F) x0 x1 x4 = agg (val_main_v0 (F := F) x0 x4) x1 := rfl

/-- The second layer's aggregation is the same function of the second projection: the reference computes the edge
    rows and the normalisation a second time, from the same edge list. -/
theorem v88_eq (x0 : (⟨S100000x64, .f32⟩ : BufTy).Contents (Elt F)) (x1 : (⟨S2x1000000, .i32⟩ : BufTy).Contents (Elt F))
    (x4 : (⟨S64x64, .f32⟩ : BufTy).Contents (Elt F)) (x5 : (⟨S64, .f32⟩ : BufTy).Contents (Elt F))
    (x6 : (⟨S64x64, .f32⟩ : BufTy).Contents (Elt F)) :
    val_main_v88 (F := F) x0 x1 x4 x5 x6 = agg (val_main_v49 (F := F) x0 x1 x4 x5 x6) x1 := rfl

/-- The per-row self-loop scale is computed twice, to the same column. -/
theorem v90_eq (x1 : (⟨S2x1000000, .i32⟩ : BufTy).Contents (Elt F)) : val_main_v90 (F := F) x1 = val_main_v41 (F := F) x1 := rfl

/-- The last three operations as a function of the pooled sums: join the graph features as a 65th column, multiply by
    the 65 x 2 weight, add the bias. -/
def head (p : (⟨S64x64, .f32⟩ : BufTy).Contents (Elt F)) (x3 : (⟨S64x1, .f32⟩ : BufTy).Contents (Elt F))
    (x8 : (⟨S65x2, .f32⟩ : BufTy).Contents (Elt F)) (x9 : (⟨S2, .f32⟩ : BufTy).Contents (Elt F)) :
    (⟨S64x2, .f32⟩ : BufTy).Contents (Elt F) :=
  addf (Host.dotGeneral dot_S64x65_S65x2_S64x2_1_0_0_1_n_n none
      (concatenate S64x65 1 [⟨S64x64, p⟩, ⟨S64x1, x3⟩] concatenates_S64x64_S64x1_S64x65_d1) x8)
    (val_main_v104 (F := F) x9)

theorem v105_eq (x0 : (⟨S100000x64, .f32⟩ : BufTy).Contents (Elt F)) (x1 : (⟨S2x1000000, .i32⟩ : BufTy).Contents (Elt F))
    (x2 : (⟨S100000, .i32⟩ : BufTy).Contents (Elt F)) (x3 : (⟨S64x1, .f32⟩ : BufTy).Contents (Elt F))
    (x4 : (⟨S64x64, .f32⟩ : BufTy).Contents (Elt F)) (x5 : (⟨S64, .f32⟩ : BufTy).Contents (Elt F))
    (x6 : (⟨S64x64, .f32⟩ : BufTy).Contents (Elt F)) (x7 : (⟨S64, .f32⟩ : BufTy).Contents (Elt F))
    (x8 : (⟨S65x2, .f32⟩ : BufTy).Contents (Elt F)) (x9 : (⟨S2, .f32⟩ : BufTy).Contents (Elt F)) :
    val_main_v105 (F := F) x0 x1 x2 x3 x4 x5 x6 x7 x8 x9 = head (val_main_v100 (F := F) x0 x1 x2 x4 x5 x6 x7) x3 x8 x9 := rfl

/-! ## At the extended reals -/

/-- The first projection is the matrix product. -/
theorem v0_eq (x0 : (⟨S100000x64, .f32⟩ : BufTy).Contents (Elt Ideal)) (x4 : (⟨S64x64, .f32⟩ : BufTy).Contents (Elt Ideal)) :
    val_main_v0 (F := Ideal) x0 x4 = Cert.Spec.mmS x0 x4 := by
  funext i
  obtain ⟨r, j, rfl⟩ : ∃ (r : Fin 100000) (j : Fin 64), i = ix2 r j := ⟨i 0, i 1, eq_ix2 i⟩
  unfold val_main_v0
  exact Cert.LibContract.dotGeneral_plain dot_S100000x64_S64x64_S100000x64_1_0_0_1_n_n rfl rfl rfl rfl rfl rfl none x0 x4 r j

/-- The second projection is the matrix product of the first layer's output. -/
theorem v49_eq (x0 : (⟨S100000x64, .f32⟩ : BufTy).Contents (Elt Ideal)) (x1 : (⟨S2x1000000, .i32⟩ : BufTy).Contents (Elt Ideal))
    (x4 : (⟨S64x64, .f32⟩ : BufTy).Contents (Elt Ideal)) (x5 : (⟨S64, .f32⟩ : BufTy).Contents (Elt Ideal))
    (x6 : (⟨S64x64, .f32⟩ : BufTy).Contents (Elt Ideal)) :
    val_main_v49 (F := Ideal) x0 x1 x4 x5 x6 = Cert.Spec.mmS (val_main_v48 (F := Ideal) x0 x1 x4 x5) x6 := by
  funext i
  obtain ⟨r, j, rfl⟩ : ∃ (r : Fin 100000) (j : Fin 64), i = ix2 r j := ⟨i 0, i 1, eq_ix2 i⟩
  unfold val_main_v49
  exact Cert.LibContract.dotGeneral_plain dot_S100000x64_S64x64_S100000x64_1_0_0_1_n_n rfl rfl rfl rfl rfl rfl none _ x6 r j

/-- Where the column broadcast of the scale reads, and where the row broadcast of the bias reads. -/
private theorem idx_col (i : S100000x64.Idx) : idx_main_v42 i = ix2 (i 0) (0 : Fin 1) :=
  funext fun a => Fin.ext (by match a with | ⟨0, _⟩ => rfl | ⟨1, _⟩ => rfl)
private theorem idx_row (i : S100000x64.Idx) : idx_main_v45 (idx_main_v46 i) = ix1 (i 1) :=
  funext fun a => Fin.ext (by match a with | ⟨0, _⟩ => rfl)
private theorem idx_col' (i : S100000x64.Idx) : idx_main_v91 i = ix2 (i 0) (0 : Fin 1) :=
  funext fun a => Fin.ext (by match a with | ⟨0, _⟩ => rfl | ⟨1, _⟩ => rfl)
private theorem idx_row' (i : S100000x64.Idx) : idx_main_v94 (idx_main_v95 i) = ix1 (i 1) :=
  funext fun a => Fin.ext (by match a with | ⟨0, _⟩ => rfl)

/-- The first rectified layer is the node update of the aggregation, the projection, the scale column and the bias. -/
theorem v48_eq (x0 : (⟨S100000x64, .f32⟩ : BufTy).Contents (Elt Ideal)) (x1 : (⟨S2x1000000, .i32⟩ : BufTy).Contents (Elt Ideal))
    (x4 : (⟨S64x64, .f32⟩ : BufTy).Contents (Elt Ideal)) (x5 : (⟨S64, .f32⟩ : BufTy).Contents (Elt Ideal)) :
    val_main_v48 (F := Ideal) x0 x1 x4 x5
      = Cert.Spec.nuS (val_main_v39 (F := Ideal) x0 x1 x4) (val_main_v0 (F := Ideal) x0 x4) (val_main_v41 (F := Ideal) x1) x5 := by
  funext i
  rw [val_main_v48_apply, val_main_v47_apply, val_main_v44_apply, val_main_v43_apply, val_main_v42_apply, val_main_v46_apply,
    val_main_v45_apply, val_main_call0_v0_apply, val_main_call0_cst_apply, idx_col, idx_row]
  simp only [Cert.Spec.nuS, Ideal.maximumf_def, Ideal.addf_def, Ideal.mulf_def, Ideal.ofBits_def, Ideal.ofBits_zero_f32]
  rfl

/-- The second rectified layer likewise. -/
theorem v97_eq (x0 : (⟨S100000x64, .f32⟩ : BufTy).Contents (Elt Ideal)) (x1 : (⟨S2x1000000, .i32⟩ : BufTy).Contents (Elt Ideal))
    (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal)) :
    val_main_v97 (F := Ideal) x0 x1 x4 x5 x6 x7
      = Cert.Spec.nuS (val_main_v88 (F := Ideal) x0 x1 x4 x5 x6) (val_main_v49 (F := Ideal) x0 x1 x4 x5 x6) (val_main_v90 (F := Ideal) x1) x7 := by
  funext i
  rw [val_main_v97_apply, val_main_v96_apply, val_main_v93_apply, val_main_v92_apply, val_main_v91_apply, val_main_v95_apply,
    val_main_v94_apply, val_main_call1_v0_apply, val_main_call1_cst_apply, idx_col', idx_row']
  simp only [Cert.Spec.nuS, Ideal.maximumf_def, Ideal.addf_def, Ideal.mulf_def, Ideal.ofBits_def, Ideal.ofBits_zero_f32]
  rfl

/-- The accumulating scatter by graph number, into zeros, is the pooled sum. -/
theorem v100_eq (x0 : (⟨S100000x64, .f32⟩ : BufTy).Contents (Elt Ideal)) (x1 : (⟨S2x1000000, .i32⟩ : BufTy).Contents (Elt Ideal))
    (x2 : (⟨S100000, .i32⟩ : BufTy).Contents (Elt Ideal)) (x4 : (⟨S64x64, .f32⟩ : BufTy).Contents (Elt Ideal))
    (x5 : (⟨S64, .f32⟩ : BufTy).Contents (Elt Ideal)) (x6 : (⟨S64x64, .f32⟩ : BufTy).Contents (Elt Ideal))
    (x7 : (⟨S64, .f32⟩ : BufTy).Contents (Elt Ideal)) :
    val_main_v100 (F := Ideal) x0 x1 x2 x4 x5 x6 x7
      = Cert.Spec.poolS (val_main_v97 (F := Ideal) x0 x1 x4 x5 x6 x7) (val_main_v99 (F := Ideal) x2) := by
  funext i
  obtain ⟨g, j, rfl⟩ : ∃ (g : Fin 64) (j : Fin 64), i = ix2 g j := ⟨i 0, i 1, eq_ix2 i⟩
  unfold val_main_v100
  refine (Cert.LibScatterRows.scatterAdd_rows_apply scatter_S64x64_S100000x1_S100000x64_1_0_0_1 rfl rfl rfl rfl _ _ _ g j).trans ?_
  rw [val_main_v98_apply, val_main_cst_18_apply]
  simp only [Cert.Spec.poolS, Ideal.ofBits_def, Ideal.ofBits_zero_f32, zero_add]

end Cert.ReferenceIdeal.Stages

end
-- ==== Proof.Stretch.lean ====
/-
  The program's four host stretches, read at the buffers later launches and stretches use, against the reference
  program's stages: the same operations on the same operands give the same arrays. The one difference in spelling: the
  program makes the per-row scale column, and the column of graph numbers, by a reshape of a vector to one column,
  where the reference broadcasts the vector along a new unit axis; the two columns are equal entry by entry.
-/
import proofs.«431064_j2465311228180_3_alg».proof.Proof.Gen.KernelIdeal.Frame
import proofs.«431064_j2465311228180_3_alg».proof.Proof.RefStages
import Idealize.ShloMosaic.Lib.Pipeline.Value
import Idealize.ShloMosaic.Lib.ValueIdx

set_option maxRecDepth 16384

noncomputable section

namespace Cert.KernelIdeal.Stretch

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

/-- A vector of 100000 entries reshaped to one column is the vector broadcast along a new unit axis: entry (r, 0) of
    either is entry r. -/
theorem col_eq {α : Type} (y : S100000.Idx → α) (h1 : S100000.ShapeCasts S100000x1)
    (h2 : S100000.BroadcastsInDim S100000x1 (![0] : Fin 1 → Fin S100000x1.rank)) :
    shapeCast S100000x1 y h1 = broadcastInDim S100000x1 ![0] h2 y := by
  funext i
  have e1 := shapeCast_apply y h1 i (ix1 (i 0 : Fin 100000)) (by
    rw [Shape.rowMajor_val_one, Shape.rowMajor_val_two]
    have h0 : (i 1).val < 1 := (i 1).isLt
    show (i 0).val = (i 0).val * 1 + (i 1).val
    omega)
  have e2 := broadcastInDim_apply ![0] h2 y i (ix1 (i 0 : Fin 100000)) (by
    intro a
    match a with
    | ⟨0, _⟩ => show (i 0).val = if (100000 : Nat) = 1 then 0 else (i 0).val; rw [if_neg (by decide)])
  rw [e1, e2]

variable (W : Valuation τ sig (Elt F))

/-! ## The first stretch: the edge rows, the normalisation, the scale column, the column of graph numbers -/

/-- The row of edge sources. -/
theorem s0_src : after (hostOps0 (F := F)) W (Proc.devRef .tc main_v1) = Cert.ReferenceIdeal.Read.val_main_v2 (F := F) (W (Proc.devRef .tc main_arg1)) := by
  after_results_simp
  rfl

/-- The row of edge destinations. -/
theorem s0_dst : after (hostOps0 (F := F)) W (Proc.devRef .tc main_v3) = Cert.ReferenceIdeal.Read.val_main_v4 (F := F) (W (Proc.devRef .tc main_arg1)) := by
  after_results_simp
  rfl

set_option maxHeartbeats 2000000 in
/-- The per-edge normalisation. -/
theorem s0_norm : after (hostOps0 (F := F)) W (Proc.devRef .tc main_v25) = Cert.ReferenceIdeal.Read.val_main_v26 (F := F) (W (Proc.devRef .tc main_arg1)) := by
  after_results_simp
  rfl

set_option maxHeartbeats 2000000 in
/-- The per-row self-loop scale, as a column. -/
theorem s0_scale : after (hostOps0 (F := F)) W (Proc.devRef .tc main_v27) = Cert.ReferenceIdeal.Read.val_main_v41 (F := F) (W (Proc.devRef .tc main_arg1)) := by
  after_results_simp
  exact (col_eq _ _ Cert.ReferenceIdeal.Gen.bcast_S100000_S100000x1_0).trans rfl

/-- The graph numbers, as a column. -/
theorem s0_graph : after (hostOps0 (F := F)) W (Proc.devRef .tc main_v28) = Cert.ReferenceIdeal.Read.val_main_v99 (F := F) (W (Proc.devRef .tc main_arg2)) := by
  after_results_simp
  exact (col_eq _ _ Cert.ReferenceIdeal.Gen.bcast_S100000_S100000x1_0).trans rfl

/-! ## The second and third stretches: the edge aggregation of the projected features -/

set_option maxHeartbeats 1000000 in
/-- The first layer's aggregation, from the first projection and the first stretch's edge rows and normalisation. -/
theorem s1_agg (x1 : (Proc.devRef (τ := τ) (sig := sig) .tc main_arg1).ty.Contents (Elt F))
    (h1 : W (Proc.devRef .tc main_v1) = Cert.ReferenceIdeal.Read.val_main_v2 (F := F) x1)
    (h3 : W (Proc.devRef .tc main_v3) = Cert.ReferenceIdeal.Read.val_main_v4 (F := F) x1)
    (h25 : W (Proc.devRef .tc main_v25) = Cert.ReferenceIdeal.Read.val_main_v26 (F := F) x1) :
    after (hostOps1 (F := F)) W (Proc.devRef .tc main_v42) = Cert.ReferenceIdeal.Stages.agg (F := F) (W (Proc.devRef .tc main_v29)) x1 := by
  after_results_simp
  rw [h1, h3, h25]
  rfl

set_option maxHeartbeats 1000000 in
/-- The second layer's aggregation, from the second projection and the same edge rows and normalisation. -/
theorem s3_agg (x1 : (Proc.devRef (τ := τ) (sig := sig) .tc main_arg1).ty.Contents (Elt F))
    (h1 : W (Proc.devRef .tc main_v1) = Cert.ReferenceIdeal.Read.val_main_v2 (F := F) x1)
    (h3 : W (Proc.devRef .tc main_v3) = Cert.ReferenceIdeal.Read.val_main_v4 (F := F) x1)
    (h25 : W (Proc.devRef .tc main_v25) = Cert.ReferenceIdeal.Read.val_main_v26 (F := F) x1) :
    after (hostOps3 (F := F)) W (Proc.devRef .tc main_v57) = Cert.ReferenceIdeal.Stages.agg (F := F) (W (Proc.devRef .tc main_v44)) x1 := by
  after_results_simp
  rw [h1, h3, h25]
  rfl

/-! ## The last stretch: the graph features joined, the last weight, the bias -/

theorem s5_head : after (hostOps5 (F := F)) W (Proc.devRef .tc main_v64)
    = Cert.ReferenceIdeal.Stages.head (F := F) (W (Proc.devRef .tc main_v59)) (W (Proc.devRef .tc main_arg3)) (W (Proc.devRef .tc main_arg8)) (W (Proc.devRef .tc main_arg9)) := by
  after_results_simp
  rfl

end Cert.KernelIdeal.Stretch

end
-- ==== Proof.Chain.lean ====
/-
  The program's result buffer after the run, walked boundary by boundary from the launch memory: each host stretch's
  results are the reference's stages of the same operands, each launch's output array is its array function of the
  launch's input arrays, and a buffer nothing writes in between is carried along. At the end the result buffer holds
  the reference's last stage of the ten argument arrays.
-/
import proofs.«431064_j2465311228180_3_alg».proof.Proof.Gen.KernelIdeal.Frame
import proofs.«431064_j2465311228180_3_alg».proof.Proof.Keep
import proofs.«431064_j2465311228180_3_alg».proof.Proof.Stretch
import proofs.«431064_j2465311228180_3_alg».proof.Proof.RefStages
import proofs.«431064_j2465311228180_3_alg».proof.Proof.Spec

set_option maxRecDepth 16384

noncomputable section

namespace Cert.KernelIdeal.Chain

open Cert.KernelIdeal Cert.KernelIdeal.Gen Cert.KernelIdeal.Keep Cert.KernelIdeal.Stretch
open Idealize.ShloMosaic Idealize.ShloMosaic.TcCoe Idealize.SL.Sem
open Cert.ReferenceIdeal.Read Cert.ReferenceIdeal.Stages

variable (m : (ℓ : Loc nD τ sig) → Buf (Elt Ideal) ℓ) (ρ : Dev nD → PrngReg) (c : Dev nD)

/-- The five launches' output arrays as array functions of their input arrays, at any region-entry contents. -/
structure Regions : Prop where
  r0 : ∀ (V : (c : Dev nD) → (b : Ref sig .tc) → Buf (Elt Ideal) ((c : Thread nD τ).loc b)) (c : Dev nD), (dat0 (F := Ideal) V c).arrAt 2 cfg0.N = Cert.Spec.mmS (V c main_arg0) (V c main_arg4)
  r1 : ∀ (V : (c : Dev nD) → (b : Ref sig .tc) → Buf (Elt Ideal) ((c : Thread nD τ).loc b)) (c : Dev nD), (dat1 (F := Ideal) V c).arrAt 4 cfg1.N = Cert.Spec.nuS (V c main_v42) (V c main_v29) (V c main_v27) (V c main_arg5)
  r2 : ∀ (V : (c : Dev nD) → (b : Ref sig .tc) → Buf (Elt Ideal) ((c : Thread nD τ).loc b)) (c : Dev nD), (dat2 (F := Ideal) V c).arrAt 2 cfg2.N = Cert.Spec.mmS (V c main_v43) (V c main_arg6)
  r3 : ∀ (V : (c : Dev nD) → (b : Ref sig .tc) → Buf (Elt Ideal) ((c : Thread nD τ).loc b)) (c : Dev nD), (dat3 (F := Ideal) V c).arrAt 4 cfg3.N = Cert.Spec.nuS (V c main_v57) (V c main_v44) (V c main_v27) (V c main_arg7)
  r4 : ∀ (V : (c : Dev nD) → (b : Ref sig .tc) → Buf (Elt Ideal) ((c : Thread nD τ).loc b)) (c : Dev nD), (dat4 (F := Ideal) V c).arrAt 2 cfg4.N = Cert.Spec.poolS (V c main_v58) (V c main_v28)

/-- The ten argument arrays as launched. -/
abbrev x0 := m ((c : Thread nD τ).loc main_arg0)
abbrev x1 := m ((c : Thread nD τ).loc main_arg1)
abbrev x2 := m ((c : Thread nD τ).loc main_arg2)
abbrev x3 := m ((c : Thread nD τ).loc main_arg3)
abbrev x4 := m ((c : Thread nD τ).loc main_arg4)
abbrev x5 := m ((c : Thread nD τ).loc main_arg5)
abbrev x6 := m ((c : Thread nD τ).loc main_arg6)
abbrev x7 := m ((c : Thread nD τ).loc main_arg7)
abbrev x8 := m ((c : Thread nD τ).loc main_arg8)
abbrev x9 := m ((c : Thread nD τ).loc main_arg9)

/-! ## After the first stretch -/

theorem b1_src : W1 m ρ c (Proc.devRef .tc main_v1) = val_main_v2 (F := Ideal) (x1 m c) := s0_src (W0 m ρ c)
theorem b1_dst : W1 m ρ c (Proc.devRef .tc main_v3) = val_main_v4 (F := Ideal) (x1 m c) := s0_dst (W0 m ρ c)
theorem b1_norm : W1 m ρ c (Proc.devRef .tc main_v25) = val_main_v26 (F := Ideal) (x1 m c) := s0_norm (W0 m ρ c)
theorem b1_scale : W1 m ρ c (Proc.devRef .tc main_v27) = val_main_v41 (F := Ideal) (x1 m c) := s0_scale (W0 m ρ c)
theorem b1_graph : W1 m ρ c (Proc.devRef .tc main_v28) = val_main_v99 (F := Ideal) (x2 m c) := s0_graph (W0 m ρ c)

/-! ## After the first projection -/

theorem b2_h1 (hR : Regions) : W2 m ρ c (Proc.devRef .tc main_v29) = val_main_v0 (F := Ideal) (x0 m c) (x4 m c) := by
  refine (W2_arr m ρ c 2).trans ((hR.r0 (V1 m ρ) c).trans ?_)
  rw [show V1 m ρ c main_arg0 = x0 m c from W1_of m ρ c main_arg0 (by decide),
    show V1 m ρ c main_arg4 = x4 m c from W1_of m ρ c main_arg4 (by decide)]
  exact (v0_eq (x0 m c) (x4 m c)).symm
theorem b2_src : W2 m ρ c (Proc.devRef .tc main_v1) = val_main_v2 (F := Ideal) (x1 m c) :=
  (W2_of_ne m ρ c main_v1 (by decide)).trans (b1_src m ρ c)
theorem b2_dst : W2 m ρ c (Proc.devRef .tc main_v3) = val_main_v4 (F := Ideal) (x1 m c) :=
  (W2_of_ne m ρ c main_v3 (by decide)).trans (b1_dst m ρ c)
theorem b2_norm : W2 m ρ c (Proc.devRef .tc main_v25) = val_main_v26 (F := Ideal) (x1 m c) :=
  (W2_of_ne m ρ c main_v25 (by decide)).trans (b1_norm m ρ c)
theorem b2_scale : W2 m ρ c (Proc.devRef .tc main_v27) = val_main_v41 (F := Ideal) (x1 m c) :=
  (W2_of_ne m ρ c main_v27 (by decide)).trans (b1_scale m ρ c)
theorem b2_graph : W2 m ρ c (Proc.devRef .tc main_v28) = val_main_v99 (F := Ideal) (x2 m c) :=
  (W2_of_ne m ρ c main_v28 (by decide)).trans (b1_graph m ρ c)
theorem b2_arg (r : Ref sig .tc) (h0 : r ∉ wr0) (h : ∀ w, Pipeline.arrRef spec0 w ≠ r) :
    W2 m ρ c (Proc.devRef .tc r) = m ((c : Thread nD τ).loc r) :=
  (W2_of_ne m ρ c r h).trans (W1_of m ρ c r h0)

/-! ## After the second stretch -/

theorem b3_agg1 (hR : Regions) : W3 m ρ c (Proc.devRef .tc main_v42) = val_main_v39 (F := Ideal) (x0 m c) (x1 m c) (x4 m c) := by
  refine (s1_agg (W2 m ρ c) (x1 m c) (b2_src m ρ c) (b2_dst m ρ c) (b2_norm m ρ c)).trans ?_
  rw [b2_h1 m ρ c hR]
  exact (v39_eq (x0 m c) (x1 m c) (x4 m c)).symm
theorem b3_h1 (hR : Regions) : W3 m ρ c (Proc.devRef .tc main_v29) = val_main_v0 (F := Ideal) (x0 m c) (x4 m c) :=
  (W3_of m ρ c main_v29 (by decide)).trans (b2_h1 m ρ c hR)
theorem b3_src : W3 m ρ c (Proc.devRef .tc main_v1) = val_main_v2 (F := Ideal) (x1 m c) :=
  (W3_of m ρ c main_v1 (by decide)).trans (b2_src m ρ c)
theorem b3_dst : W3 m ρ c (Proc.devRef .tc main_v3) = val_main_v4 (F := Ideal) (x1 m c) :=
  (W3_of m ρ c main_v3 (by decide)).trans (b2_dst m ρ c)
theorem b3_norm : W3 m ρ c (Proc.devRef .tc main_v25) = val_main_v26 (F := Ideal) (x1 m c) :=
  (W3_of m ρ c main_v25 (by decide)).trans (b2_norm m ρ c)
theorem b3_scale : W3 m ρ c (Proc.devRef .tc main_v27) = val_main_v41 (F := Ideal) (x1 m c) :=
  (W3_of m ρ c main_v27 (by decide)).trans (b2_scale m ρ c)
theorem b3_graph : W3 m ρ c (Proc.devRef .tc main_v28) = val_main_v99 (F := Ideal) (x2 m c) :=
  (W3_of m ρ c main_v28 (by decide)).trans (b2_graph m ρ c)
theorem b3_arg (r : Ref sig .tc) (h0 : r ∉ wr0) (h : ∀ w, Pipeline.arrRef spec0 w ≠ r) (h1 : r ∉ wr1) :
    W3 m ρ c (Proc.devRef .tc r) = m ((c : Thread nD τ).loc r) :=
  (W3_of m ρ c r h1).trans (b2_arg m ρ c r h0 h)

/-! ## After the first node update -/

theorem b4_out1 (hR : Regions) : W4 m ρ c (Proc.devRef .tc main_v43) = val_main_v48 (F := Ideal) (x0 m c) (x1 m c) (x4 m c) (x5 m c) := by
  refine (W4_arr m ρ c 4).trans ((hR.r1 (V3 m ρ) c).trans ?_)
  rw [show V3 m ρ c main_v42 = _ from b3_agg1 m ρ c hR, show V3 m ρ c main_v29 = _ from b3_h1 m ρ c hR,
    show V3 m ρ c main_v27 = _ from b3_scale m ρ c,
    show V3 m ρ c main_arg5 = x5 m c from b3_arg m ρ c main_arg5 (by decide) (by decide) (by decide)]
  exact (v48_eq (x0 m c) (x1 m c) (x4 m c) (x5 m c)).symm
theorem b4_src : W4 m ρ c (Proc.devRef .tc main_v1) = val_main_v2 (F := Ideal) (x1 m c) :=
  (W4_of_ne m ρ c main_v1 (by decide)).trans (b3_src m ρ c)
theorem b4_dst : W4 m ρ c (Proc.devRef .tc main_v3) = val_main_v4 (F := Ideal) (x1 m c) :=
  (W4_of_ne m ρ c main_v3 (by decide)).trans (b3_dst m ρ c)
theorem b4_norm : W4 m ρ c (Proc.devRef .tc main_v25) = val_main_v26 (F := Ideal) (x1 m c) :=
  (W4_of_ne m ρ c main_v25 (by decide)).trans (b3_norm m ρ c)
theorem b4_graph : W4 m ρ c (Proc.devRef .tc main_v28) = val_main_v99 (F := Ideal) (x2 m c) :=
  (W4_of_ne m ρ c main_v28 (by decide)).trans (b3_graph m ρ c)
theorem b4_scale : W4 m ρ c (Proc.devRef .tc main_v27) = val_main_v41 (F := Ideal) (x1 m c) :=
  ((W4_arr m ρ c 2).trans (((dat1 (V3 m ρ) c).arrAt_in 2 rfl _).trans (A_eq1 (V3 m ρ) c 2))).trans (b3_scale m ρ c)
theorem b4_arg (r : Ref sig .tc) (h0 : r ∉ wr0) (h : ∀ w, Pipeline.arrRef spec0 w ≠ r) (h1 : r ∉ wr1)
    (h' : ∀ w, Pipeline.arrRef spec1 w ≠ r) : W4 m ρ c (Proc.devRef .tc r) = m ((c : Thread nD τ).loc r) :=
  (W4_of_ne m ρ c r h').trans (b3_arg m ρ c r h0 h h1)

/-! ## After the second projection -/

theorem b5_h2 (hR : Regions) : W5 m ρ c (Proc.devRef .tc main_v44)
    = val_main_v49 (F := Ideal) (x0 m c) (x1 m c) (x4 m c) (x5 m c) (x6 m c) := by
  refine (W5_arr m ρ c 2).trans ((hR.r2 (V4 m ρ) c).trans ?_)
  rw [show V4 m ρ c main_v43 = _ from b4_out1 m ρ c hR,
    show V4 m ρ c main_arg6 = x6 m c from b4_arg m ρ c main_arg6 (by decide) (by decide) (by decide) (by decide)]
  exact (v49_eq (x0 m c) (x1 m c) (x4 m c) (x5 m c) (x6 m c)).symm
theorem b5_src : W5 m ρ c (Proc.devRef .tc main_v1) = val_main_v2 (F := Ideal) (x1 m c) :=
  (W5_of_ne m ρ c main_v1 (by decide)).trans (b4_src m ρ c)
theorem b5_dst : W5 m ρ c (Proc.devRef .tc main_v3) = val_main_v4 (F := Ideal) (x1 m c) :=
  (W5_of_ne m ρ c main_v3 (by decide)).trans (b4_dst m ρ c)
theorem b5_norm : W5 m ρ c (Proc.devRef .tc main_v25) = val_main_v26 (F := Ideal) (x1 m c) :=
  (W5_of_ne m ρ c main_v25 (by decide)).trans (b4_norm m ρ c)
theorem b5_scale : W5 m ρ c (Proc.devRef .tc main_v27) = val_main_v41 (F := Ideal) (x1 m c) :=
  (W5_of_ne m ρ c main_v27 (by decide)).trans (b4_scale m ρ c)
theorem b5_graph : W5 m ρ c (Proc.devRef .tc main_v28) = val_main_v99 (F := Ideal) (x2 m c) :=
  (W5_of_ne m ρ c main_v28 (by decide)).trans (b4_graph m ρ c)
theorem b5_arg (r : Ref sig .tc) (h0 : r ∉ wr0) (h : ∀ w, Pipeline.arrRef spec0 w ≠ r) (h1 : r ∉ wr1)
    (h' : ∀ w, Pipeline.arrRef spec1 w ≠ r) (h'' : ∀ w, Pipeline.arrRef spec2 w ≠ r) :
    W5 m ρ c (Proc.devRef .tc r) = m ((c : Thread nD τ).loc r) :=
  (W5_of_ne m ρ c r h'').trans (b4_arg m ρ c r h0 h h1 h')

/-! ## After the third stretch -/

theorem b6_agg2 (hR : Regions) : W6 m ρ c (Proc.devRef .tc main_v57)
    = val_main_v88 (F := Ideal) (x0 m c) (x1 m c) (x4 m c) (x5 m c) (x6 m c) := by
  refine (s3_agg (W5 m ρ c) (x1 m c) (b5_src m ρ c) (b5_dst m ρ c) (b5_norm m ρ c)).trans ?_
  rw [b5_h2 m ρ c hR]
  exact (v88_eq (x0 m c) (x1 m c) (x4 m c) (x5 m c) (x6 m c)).symm
theorem b6_h2 (hR : Regions) : W6 m ρ c (Proc.devRef .tc main_v44)
    = val_main_v49 (F := Ideal) (x0 m c) (x1 m c) (x4 m c) (x5 m c) (x6 m c) :=
  (W6_of m ρ c main_v44 (by decide)).trans (b5_h2 m ρ c hR)
theorem b6_scale : W6 m ρ c (Proc.devRef .tc main_v27) = val_main_v41 (F := Ideal) (x1 m c) :=
  (W6_of m ρ c main_v27 (by decide)).trans (b5_scale m ρ c)
theorem b6_graph : W6 m ρ c (Proc.devRef .tc main_v28) = val_main_v99 (F := Ideal) (x2 m c) :=
  (W6_of m ρ c main_v28 (by decide)).trans (b5_graph m ρ c)
theorem b6_arg (r : Ref sig .tc) (h0 : r ∉ wr0) (h : ∀ w, Pipeline.arrRef spec0 w ≠ r) (h1 : r ∉ wr1)
    (h' : ∀ w, Pipeline.arrRef spec1 w ≠ r) (h'' : ∀ w, Pipeline.arrRef spec2 w ≠ r) (h3 : r ∉ wr3) :
    W6 m ρ c (Proc.devRef .tc r) = m ((c : Thread nD τ).loc r) :=
  (W6_of m ρ c r h3).trans (b5_arg m ρ c r h0 h h1 h' h'')

/-! ## After the second node update -/

theorem b7_out2 (hR : Regions) : W7 m ρ c (Proc.devRef .tc main_v58)
    = val_main_v97 (F := Ideal) (x0 m c) (x1 m c) (x4 m c) (x5 m c) (x6 m c) (x7 m c) := by
  refine (W7_arr m ρ c 4).trans ((hR.r3 (V6 m ρ) c).trans ?_)
  rw [show V6 m ρ c main_v57 = _ from b6_agg2 m ρ c hR, show V6 m ρ c main_v44 = _ from b6_h2 m ρ c hR,
    show V6 m ρ c main_v27 = _ from b6_scale m ρ c,
    show V6 m ρ c main_arg7 = x7 m c from b6_arg m ρ c main_arg7 (by decide) (by decide) (by decide) (by decide) (by decide) (by decide),
    ← v90_eq (F := Ideal) (x1 m c)]
  exact (v97_eq (x0 m c) (x1 m c) (x4 m c) (x5 m c) (x6 m c) (x7 m c)).symm
theorem b7_graph : W7 m ρ c (Proc.devRef .tc main_v28) = val_main_v99 (F := Ideal) (x2 m c) :=
  (W7_of_ne m ρ c main_v28 (by decide)).trans (b6_graph m ρ c)
theorem b7_arg (r : Ref sig .tc) (h0 : r ∉ wr0) (h : ∀ w, Pipeline.arrRef spec0 w ≠ r) (h1 : r ∉ wr1)
    (h' : ∀ w, Pipeline.arrRef spec1 w ≠ r) (h'' : ∀ w, Pipeline.arrRef spec2 w ≠ r) (h3 : r ∉ wr3)
    (h''' : ∀ w, Pipeline.arrRef spec3 w ≠ r) : W7 m ρ c (Proc.devRef .tc r) = m ((c : Thread nD τ).loc r) :=
  (W7_of_ne m ρ c r h''').trans (b6_arg m ρ c r h0 h h1 h' h'' h3)

/-! ## After the pooling -/

theorem b8_pool (hR : Regions) : W8 m ρ c (Proc.devRef .tc main_v59)
    = val_main_v100 (F := Ideal) (x0 m c) (x1 m c) (x2 m c) (x4 m c) (x5 m c) (x6 m c) (x7 m c) := by
  refine (W8_arr m ρ c 2).trans ((hR.r4 (V7 m ρ) c).trans ?_)
  rw [show V7 m ρ c main_v58 = _ from b7_out2 m ρ c hR, show V7 m ρ c main_v28 = _ from b7_graph m ρ c]
  exact (v100_eq (x0 m c) (x1 m c) (x2 m c) (x4 m c) (x5 m c) (x6 m c) (x7 m c)).symm
theorem b8_arg (r : Ref sig .tc) (h0 : r ∉ wr0) (h : ∀ w, Pipeline.arrRef spec0 w ≠ r) (h1 : r ∉ wr1)
    (h' : ∀ w, Pipeline.arrRef spec1 w ≠ r) (h'' : ∀ w, Pipeline.arrRef spec2 w ≠ r) (h3 : r ∉ wr3)
    (h''' : ∀ w, Pipeline.arrRef spec3 w ≠ r) (h4 : ∀ w, Pipeline.arrRef spec4 w ≠ r) :
    W8 m ρ c (Proc.devRef .tc r) = m ((c : Thread nD τ).loc r) :=
  (W8_of_ne m ρ c r h4).trans (b7_arg m ρ c r h0 h h1 h' h'' h3 h''')

/-! ## The result -/

/-- After the run the result buffer holds the reference's last stage of the ten argument arrays. -/
theorem result (hR : Regions) : W9 m ρ c (Proc.devRef .tc main_v64)
    = val_main_v105 (F := Ideal) (x0 m c) (x1 m c) (x2 m c) (x3 m c) (x4 m c) (x5 m c) (x6 m c) (x7 m c) (x8 m c) (x9 m c) := by
  refine (s5_head (W8 m ρ c)).trans ?_
  rw [b8_pool m ρ c hR,
    b8_arg m ρ c main_arg3 (by decide) (by decide) (by decide) (by decide) (by decide) (by decide) (by decide) (by decide),
    b8_arg m ρ c main_arg8 (by decide) (by decide) (by decide) (by decide) (by decide) (by decide) (by decide) (by decide),
    b8_arg m ρ c main_arg9 (by decide) (by decide) (by decide) (by decide) (by decide) (by decide) (by decide) (by decide)]
  exact (v105_eq (x0 m c) (x1 m c) (x2 m c) (x3 m c) (x4 m c) (x5 m c) (x6 m c) (x7 m c) (x8 m c) (x9 m c)).symm

end Cert.KernelIdeal.Chain

end
-- ==== Proof.Region0.lean ====
/-
  The first launch's result array. The launch runs ten grid points; point t reads rows 10000 t … 10000 t + 9999 of
  the 100000 x 64 table and the whole 64 x 64 weight, and stores their matrix product — the two operands rounded to
  a narrower format, which over the extended reals is the identity, accumulated into zeros — into rows
  10000 t … 10000 t + 9999 of the result. Entry (p, q) of point t's block is therefore the sum over k of
  table (10000 t + p, k) * weight (k, q), which is entry (10000 t + p, q) of the product of the whole table by the
  weight; the ten blocks tile the 100000 rows (row r lies in block r / 10000), so the array ends holding that product.
-/
import proofs.«431064_j2465311228180_3_alg».proof.Proof.Gen.KernelIdeal.Frame
import proofs.«431064_j2465311228180_3_alg».proof.Proof.Spec
import Idealize.ShloMosaic.Lib.Pipeline.Value
import Idealize.ShloMosaic.Lib.ValueIdx
import Idealize.ShloMosaic.PureOps.Ideal.Laws
import proofs.«431064_j2465311228180_3_alg».proof.Proof.LibContract
set_option maxRecDepth 16384
noncomputable section
namespace Cert.KernelIdeal.RegVal
open Cert.KernelIdeal Cert.KernelIdeal.Gen Idealize.ShloMosaic Idealize.ShloMosaic.TcCoe Idealize.ShloMosaic.ValueIdx Idealize.SL.Sem
open scoped BigOperators

/-- The zero offset vector of a rank-2 block. -/
theorem hz0 : (![0, 0] : Fin 2 → Nat) = fun _ => 0 := funext fun a => by fin_cases a <;> rfl

/-- The three windows' block indices at grid point t, decided over the ten points: the table's and the product's
    windows sit at block row t, column 0; the weight's window is the whole weight at every point. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's payload at entry (p, q) of a block: the sum over k of x0 (p, k) * x1 (k, q). The two roundings to
    the narrower format are the identity over the extended reals, and the accumulator is zero. -/
theorem pay0_apply (x0 : FVec Ideal S10000x64 .f32) (x1 : FVec Ideal S64x64 .f32) (p : Fin 10000) (q : Fin 64) :
    k0_pay1 (F := Ideal) x0 x1 (ix2 p q) = ∑ k : Fin 64, x0 (ix2 p k) * x1 (ix2 k q) := by
  unfold k0_pay1
  exact Cert.LibContract.matmul_plain dot_S10000x64_S64x64_S10000x64_1_0_0_1_n_n rfl rfl rfl rfl rfl rfl none
    (truncf .bf16 x0 bitsLt_bf16_f32) (truncf .bf16 x1 bitsLt_bf16_f32) p q

/-- Window 0's block at point t is rows 10000 t … 10000 t + 9999 of the table. -/
theorem rd0_0 (V : (c : Dev nD) → (b : Ref sig .tc) → Buf (Elt Ideal) ((c : Thread nD τ).loc b)) (c : Dev nD)
    (t : Fin cfg0.N) (p : Fin 10000) (k : Fin 64) (i : S100000x64.Idx)
    (h0 : (i 0).val = 10000 * t.val + p.val) (h1 : (i 1).val = k.val) :
    (iblk0 (F := Ideal) V c 0 t : Vec Ideal S10000x64 .f32) (ix2 p k) = (V c main_arg0 : S100000x64.Idx → Elt Ideal .f32) i := by
  obtain ⟨e0, e1, -, -, -, -⟩ := idx0 t
  unfold iblk0
  rw [View.read_apply]
  show V c main_arg0 _ = V c main_arg0 _
  congr 1
  funext a
  apply Fin.ext
  match a with
  | ⟨0, _⟩ => show win0_0.index t (0 : Fin 2) * 10000 + 1 * p.val = (i 0).val; rw [e0, h0]; omega
  | ⟨1, _⟩ => show win0_0.index t (1 : Fin 2) * 64 + 1 * k.val = (i 1).val; rw [e1, h1]; omega

/-- Window 1's block at every point is the whole weight. -/
theorem rd0_1 (V : (c : Dev nD) → (b : Ref sig .tc) → Buf (Elt Ideal) ((c : Thread nD τ).loc b)) (c : Dev nD)
    (t : Fin cfg0.N) (k : Fin 64) (q : Fin 64) (i : S64x64.Idx)
    (h0 : (i 0).val = k.val) (h1 : (i 1).val = q.val) :
    (iblk0 (F := Ideal) V c 1 t : Vec Ideal S64x64 .f32) (ix2 k q) = (V c main_arg4 : S64x64.Idx → Elt Ideal .f32) i := by
  obtain ⟨-, -, e2, e3, -, -⟩ := idx0 t
  unfold iblk0
  rw [View.read_apply]
  show V c main_arg4 _ = V c main_arg4 _
  congr 1
  funext a
  apply Fin.ext
  match a with
  | ⟨0, _⟩ => show win0_1.index t (0 : Fin 2) * 64 + 1 * k.val = (i 0).val; rw [e2, h0]; omega
  | ⟨1, _⟩ => show win0_1.index t (1 : Fin 2) * 64 + 1 * q.val = (i 1).val; rw [e3, h1]; omega

/-- What grid point t writes back to the product's array is block t of the product of the table by the weight:
    at (p, q) of the block, the sum over k of table (10000 t + p, k) * weight (k, q). -/
theorem flushed0 (V : (c : Dev nD) → (b : Ref sig .tc) → Buf (Elt Ideal) ((c : Thread nD τ).loc b)) (c : Dev nD)
    (t : Fin cfg0.N) :
    (dat0 (F := Ideal) V c).flushed 2 t
      = ((cfg0.win 2).blk t).view.read (Elt Ideal) (Cert.Spec.mmS (V c main_arg0) (V c main_arg4)) := by
  show (cfg0.win 2).cut (grid0.coords t) ((dat0 (F := Ideal) V c).after 2 t) = _
  rw [after0_2]
  unfold out0_2
  rw [View.canon_unit_zero hz0]
  simp only [View.ld_unit_zero (S := S10000x64) hz0, View.ld_unit_zero (S := S64x64) hz0]
  obtain ⟨-, -, -, -, e4, e5⟩ := idx0 t
  funext j
  obtain ⟨p, q, rfl⟩ : ∃ (p : Fin 10000) (q : Fin 64), j = ix2 p q := ⟨j 0, j 1, eq_ix2 j⟩
  rw [View.read_apply]
  show k0_pay1 (F := Ideal) (iblk0 (F := Ideal) V c 0 t) (iblk0 (F := Ideal) V c 1 t) (ix2 p q)
    = Cert.Spec.mmS (V c main_arg0) (V c main_arg4) (((cfg0.win 2).blk t).view.emb (ix2 p q))
  refine (pay0_apply (iblk0 (F := Ideal) V c 0 t) (iblk0 (F := Ideal) V c 1 t) p q).trans ?_
  unfold Cert.Spec.mmS
  refine Finset.sum_congr rfl fun k _ => ?_
  have hr : ((((cfg0.win 2).blk t).view.emb (ix2 p q)) 0).val = 10000 * t.val + p.val := by
    show win0_2.index t (0 : Fin 2) * 10000 + 1 * p.val = _
    rw [e4]; omega
  have hq : ((((cfg0.win 2).blk t).view.emb (ix2 p q)) 1).val = q.val := by
    show win0_2.index t (1 : Fin 2) * 64 + 1 * q.val = _
    rw [e5]; omega
  exact congrArg₂ (· * ·)
    (rd0_0 V c t p k (ix2 ((((cfg0.win 2).blk t).view.emb (ix2 p q)) 0) k) hr rfl)
    (rd0_1 V c t k q (ix2 k ((((cfg0.win 2).blk t).view.emb (ix2 p q)) 1)) rfl hq)

/-- An index of the product's array lies in point t's block iff each coordinate lies in the block's range. -/
theorem mem_blk0 (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v29).slice (win0_2.rect t)).set ↔ _
  rw [View.set_slice_whole, Rect.mem_set_unit]
  exact Iff.rfl

/-- The ten blocks of 10000 rows tile the 100000 rows: row r lies in the block of point r / 10000. -/
theorem cover0 (i : S100000x64.Idx) :
    ∃ t : Fin cfg0.N, (cfg0.win 2).flush t = true ∧ i ∈ ((cfg0.win 2).blk t).view.set := by
  have hi0 : (i 0).val < 100000 := idx2_lt0 i
  have hi1 : (i 1).val < 64 := idx2_lt1 i
  have hN : grid0.N = 10 := N_0
  have ht : (i 0).val / 10000 < grid0.N := by rw [hN]; omega
  refine ⟨⟨(i 0).val / 10000, ht⟩, flush0_2 _, ?_⟩
  rw [mem_blk0]
  obtain ⟨-, -, -, -, e4, e5⟩ := idx0 ⟨(i 0).val / 10000, ht⟩
  intro a
  match a with
  | ⟨0, _⟩ =>
    show win0_2.index ⟨(i 0).val / 10000, ht⟩ (0 : Fin 2) * 10000 ≤ (i 0).val
      ∧ (i 0).val < win0_2.index ⟨(i 0).val / 10000, ht⟩ (0 : Fin 2) * 10000 + 10000
    rw [e4]
    show (i 0).val / 10000 * 10000 ≤ (i 0).val ∧ (i 0).val < (i 0).val / 10000 * 10000 + 10000
    omega
  | ⟨1, _⟩ =>
    show win0_2.index ⟨(i 0).val / 10000, ht⟩ (1 : Fin 2) * 64 ≤ (i 1).val
      ∧ (i 1).val < win0_2.index ⟨(i 0).val / 10000, ht⟩ (1 : Fin 2) * 64 + 64
    rw [e5]
    omega

/-- After the first launch the product's array holds the product of the table by the weight: every point writes
    its block of it, and the blocks cover the array. -/
theorem region0 (V : (c : Dev nD) → (b : Ref sig .tc) → Buf (Elt Ideal) ((c : Thread nD τ).loc b)) (c : Dev nD) :
    (dat0 (F := Ideal) V c).arrAt 2 cfg0.N = Cert.Spec.mmS (V c main_arg0) (V c main_arg4) :=
  (dat0 (F := Ideal) V c).arrAt_eq_of_cover 2 (Cert.Spec.mmS (V c main_arg0) (V c main_arg4))
    (fun t _ => flushed0 V c t) cover0

end Cert.KernelIdeal.RegVal

end
-- ==== Proof.Region1.lean ====
import proofs.«431064_j2465311228180_3_alg».proof.Proof.Gen.KernelIdeal.Frame
import proofs.«431064_j2465311228180_3_alg».proof.Proof.Spec
import Idealize.ShloMosaic.Lib.Pipeline.Value
import Idealize.ShloMosaic.Lib.ValueIdx
import Idealize.ShloMosaic.PureOps.Ideal.Laws
import Idealize.ShloMosaic.Lib.ValueLayout
set_option maxRecDepth 16384
noncomputable section
namespace Cert.KernelIdeal.RegVal
open Cert.KernelIdeal Cert.KernelIdeal.Gen Idealize.ShloMosaic Idealize.ShloMosaic.TcCoe Idealize.ShloMosaic.ValueIdx Idealize.SL.Sem
open scoped BigOperators

/-! # Region 1: the node update, block by block, is the array function `Cert.Spec.nuS`

The launch has ten grid points; point `t` stages rows `10000 t … 10000 t + 9999` of the aggregate, of the projected
features and of the per-row scale, and the whole bias, and stores into its output block
`max (agg + h * d + b) 0` entry by entry. The ten output blocks tile the 100000 rows, so the output array ends as
`nuS` of the four arrays the region found. -/

theorem hz2_R1 : (![0, 0] : Fin 2 → Nat) = fun _ => 0 := funext fun a => by fin_cases a <;> rfl
theorem hz1_R1 : (![0] : Fin 1 → Nat) = fun _ => 0 := funext fun a => by fin_cases a <;> rfl

/-- An `[a, 1]` array broadcast to `[a, b]` reads, at `(p, c)`, the operand's row `p` at its one column. -/
theorem broadcastTo_a1_ab_apply_R1 {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's payload at entry `(p, q)` of the block: the bias is cast `[64] → [1, 64]` and broadcast down the rows,
    the scale `[10000, 1]` is broadcast along the columns, the casts of a shape to itself are the identity, and the
    zero word is the extended real `0`. -/
theorem pay_apply_R1 (v0 : Vec Ideal S64 .f32) (v4 v6 : Vec Ideal S10000x64 .f32) (v8 : Vec Ideal S10000x1 .f32)
    (p : Fin 10000) (q : Fin 64) :
    (k1_pay1 (F := Ideal) v0 v4 v6 v8) (ix2 p q)
      = max (v4 (ix2 p q) + v6 (ix2 p q) * v8 (ix2 p (0 : Fin 1)) + v0 (ix1 q)) (0 : EReal) := by
  unfold k1_pay1
  simp only [shapeCast_self]
  rw [maximumf_apply, addf_apply, addf_apply, mulf_apply, broadcast_apply, broadcastTo_a1_ab_apply_R1,
    broadcastTo_1b_ab_apply, shapeCast_a_1a_apply]
  show max _ (Ideal.ofBits .f32 0x00000000#32) = _
  rw [Ideal.ofBits_zero_f32]

/-- One entry of a block against one entry of the arrays: if the four staged values at `(p, q)`, `(p, 0)` and `q` are
    the arrays' at row `r`, the payload there is `nuS` at `(r, q)`. -/
theorem point_R1 (x0 x1 : Vec Ideal S10000x64 .f32) (x2 : Vec Ideal S10000x1 .f32) (x3 : Vec Ideal S64 .f32)
    (A H : FVec Ideal ⟨2, ![100000, 64]⟩ .f32) (D : FVec Ideal ⟨2, ![100000, 1]⟩ .f32) (B : FVec Ideal ⟨1, ![64]⟩ .f32)
    (r : Fin 100000) (p : Fin 10000) (q : Fin 64)
    (h0 : x0 (ix2 p q) = A (ix2 r q)) (h1 : x1 (ix2 p q) = H (ix2 r q))
    (h2 : x2 (ix2 p (0 : Fin 1)) = D (ix2 r (0 : Fin 1))) (h3 : x3 (ix1 q) = B (ix1 q)) :
    (k1_pay1 (F := Ideal) x3 x0 x1 x2) (ix2 p q) = Cert.Spec.nuS A H D B (ix2 r q) := by
  rw [pay_apply_R1, h0, h1, h2, h3]
  rfl

/-- The printed index maps, decided over the ten grid points: the row-blocked windows sit at block `(t, 0)`, the bias
    at block `0`. -/
theorem idx_facts_R1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- Row `p` of point `t`'s block is row `10000 t + p` of the array. -/
def row_R1 (t : Fin cfg1.N) (p : Fin 10000) : Fin 100000 :=
  ⟨10000 * t.val + p.val, by have hN : cfg1.N = 10 := N_1; have := t.isLt; have := p.isLt; omega⟩

/-- The aggregate's block at point `t`, entry `(p, q)`, is the array's entry `(10000 t + p, q)`. -/
theorem blk0_apply_R1 (V : (c : Dev nD) → (b : Ref sig .tc) → Buf (Elt Ideal) ((c : Thread nD τ).loc b)) (c : Dev nD)
    (t : Fin cfg1.N) (p : Fin 10000) (q : Fin 64) :
    (iblk1 (F := Ideal) V c 0 t : Vec Ideal S10000x64 .f32) (ix2 p q)
      = (V c main_v42 : FVec Ideal ⟨2, ![100000, 64]⟩ .f32) (ix2 (row_R1 t p) q) := by
  obtain ⟨e0, e1, -⟩ := idx_facts_R1 t
  unfold iblk1
  rw [View.read_apply]
  show V c main_v42 _ = V c main_v42 _
  congr 1
  funext a
  apply Fin.ext
  match a with
  | ⟨0, _⟩ => show win1_0.index t (0 : Fin 2) * 10000 + 1 * p.val = 10000 * t.val + p.val; omega
  | ⟨1, _⟩ => show win1_0.index t (1 : Fin 2) * 64 + 1 * q.val = q.val; omega

/-- The projected features' block at point `t`, entry `(p, q)`, is the array's entry `(10000 t + p, q)`. -/
theorem blk1_apply_R1 (V : (c : Dev nD) → (b : Ref sig .tc) → Buf (Elt Ideal) ((c : Thread nD τ).loc b)) (c : Dev nD)
    (t : Fin cfg1.N) (p : Fin 10000) (q : Fin 64) :
    (iblk1 (F := Ideal) V c 1 t : Vec Ideal S10000x64 .f32) (ix2 p q)
      = (V c main_v29 : FVec Ideal ⟨2, ![100000, 64]⟩ .f32) (ix2 (row_R1 t p) q) := by
  obtain ⟨-, -, e0, e1, -⟩ := idx_facts_R1 t
  unfold iblk1
  rw [View.read_apply]
  show V c main_v29 _ = V c main_v29 _
  congr 1
  funext a
  apply Fin.ext
  match a with
  | ⟨0, _⟩ => show win1_1.index t (0 : Fin 2) * 10000 + 1 * p.val = 10000 * t.val + p.val; omega
  | ⟨1, _⟩ => show win1_1.index t (1 : Fin 2) * 64 + 1 * q.val = q.val; omega

/-- The scale's block at point `t`, entry `(p, 0)`, is the array's entry `(10000 t + p, 0)`. -/
theorem blk2_apply_R1 (V : (c : Dev nD) → (b : Ref sig .tc) → Buf (Elt Ideal) ((c : Thread nD τ).loc b)) (c : Dev nD)
    (t : Fin cfg1.N) (p : Fin 10000) :
    (iblk1 (F := Ideal) V c 2 t : Vec Ideal S10000x1 .f32) (ix2 p (0 : Fin 1))
      = (V c main_v27 : FVec Ideal ⟨2, ![100000, 1]⟩ .f32) (ix2 (row_R1 t p) (0 : Fin 1)) := by
  obtain ⟨-, -, -, -, e0, e1, -⟩ := idx_facts_R1 t
  unfold iblk1
  rw [View.read_apply]
  show V c main_v27 _ = V c main_v27 _
  congr 1
  funext a
  apply Fin.ext
  match a with
  | ⟨0, _⟩ => show win1_2.index t (0 : Fin 2) * 10000 + 1 * p.val = 10000 * t.val + p.val; omega
  | ⟨1, _⟩ => show win1_2.index t (1 : Fin 2) * 1 + 1 * 0 = 0; omega

/-- The bias is staged whole at every point: its block's entry `q` is the array's entry `q`. -/
theorem blk3_apply_R1 (V : (c : Dev nD) → (b : Ref sig .tc) → Buf (Elt Ideal) ((c : Thread nD τ).loc b)) (c : Dev nD)
    (t : Fin cfg1.N) (q : Fin 64) :
    (iblk1 (F := Ideal) V c 3 t : Vec Ideal S64 .f32) (ix1 q)
      = (V c main_arg5 : FVec Ideal ⟨1, ![64]⟩ .f32) (ix1 q) := by
  obtain ⟨-, -, -, -, -, -, e0, -⟩ := idx_facts_R1 t
  unfold iblk1
  rw [View.read_apply]
  show V c main_arg5 _ = V c main_arg5 _
  congr 1
  funext a
  apply Fin.ext
  match a with
  | ⟨0, _⟩ => show win1_3.index t (0 : Fin 1) * 64 + 1 * q.val = q.val; omega

/-- Entry `(p, q)` of the output's block at point `t` lies at `(10000 t + p, q)` in the output array. -/
theorem emb4_R1 (t : Fin cfg1.N) (p : Fin 10000) (q : Fin 64) :
    (((cfg1.win 4).blk t).view.emb (ix2 p q) : S100000x64.Idx) = ix2 (row_R1 t p) q := by
  obtain ⟨-, -, -, -, -, -, -, e0, e1⟩ := idx_facts_R1 t
  funext a
  apply Fin.ext
  match a with
  | ⟨0, _⟩ => show win1_4.index t (0 : Fin 2) * 10000 + 1 * p.val = 10000 * t.val + p.val; omega
  | ⟨1, _⟩ => show win1_4.index t (1 : Fin 2) * 64 + 1 * q.val = q.val; omega

/-- What point `t` writes back is block `t` of `nuS` of the four arrays as the region finds them. -/
theorem flushed_eq_R1 (V : (c : Dev nD) → (b : Ref sig .tc) → Buf (Elt Ideal) ((c : Thread nD τ).loc b)) (c : Dev nD)
    (t : Fin cfg1.N) :
    (dat1 (F := Ideal) V c).flushed 4 t
      = ((cfg1.win 4).blk t).view.read (Elt Ideal)
          (Cert.Spec.nuS (V c main_v42) (V c main_v29) (V c main_v27) (V c main_arg5)) := by
  show (cfg1.win 4).cut (grid1.coords t) ((dat1 V c).after 4 t) = _
  rw [after1_4]
  unfold out1_4
  rw [View.canon_unit_zero hz2_R1]
  simp only [View.ld_unit_zero (S := S10000x64) hz2_R1, View.ld_unit_zero (S := S10000x1) hz2_R1,
    View.ld_unit_zero (S := S64) hz1_R1]
  funext j
  obtain ⟨p, q, rfl⟩ : ∃ (p : Fin 10000) (q : Fin 64), j = ix2 p q := ⟨j 0, j 1, eq_ix2 j⟩
  rw [View.read_apply, emb4_R1]
  exact point_R1 (iblk1 V c 0 t) (iblk1 V c 1 t) (iblk1 V c 2 t) (iblk1 V c 3 t)
    (V c main_v42) (V c main_v29) (V c main_v27) (V c main_arg5) (row_R1 t p) p q
    (blk0_apply_R1 V c t p q) (blk1_apply_R1 V c t p q) (blk2_apply_R1 V c t p) (blk3_apply_R1 V c t q)

/-- An index of the output array is in point `t`'s block iff each coordinate is in the block's range on its axis. -/
theorem mem_blk_R1 (t : Fin cfg1.N) (i : S100000x64.Idx) :
    i ∈ ((cfg1.win 4).blk t).view.set ↔ ∀ a : Fin 2, win1_4.index t a * S10000x64.size a ≤ (i a).val
      ∧ (i a).val < win1_4.index t a * S10000x64.size a + S10000x64.size a := by
  show i ∈ ((View.whole main_v43).slice (win1_4.rect t)).set ↔ _
  rw [View.set_slice_whole, Rect.mem_set_unit]
  exact Iff.rfl

/-- The ten blocks of 10000 rows tile the 100000 rows: row `r` is in the block of point `r / 10000`. -/
theorem cover_R1 (i : S100000x64.Idx) :
    ∃ t : Fin cfg1.N, (cfg1.win 4).flush t = true ∧ i ∈ ((cfg1.win 4).blk t).view.set := by
  have hN : cfg1.N = 10 := N_1
  have hi0 : (i 0).val < 100000 := (i 0).isLt
  have hi1 : (i 1).val < 64 := (i 1).isLt
  have ht : (i 0).val / 10000 < cfg1.N := by rw [hN]; omega
  obtain ⟨-, -, -, -, -, -, -, e0, e1⟩ := idx_facts_R1 ⟨(i 0).val / 10000, ht⟩
  refine ⟨⟨(i 0).val / 10000, ht⟩, flush1_4 _, ?_⟩
  rw [mem_blk_R1]
  intro a
  match a with
  | ⟨0, _⟩ =>
    show win1_4.index ⟨(i 0).val / 10000, ht⟩ (0 : Fin 2) * 10000 ≤ (i 0).val
      ∧ (i 0).val < win1_4.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win1_4.index ⟨(i 0).val / 10000, ht⟩ (1 : Fin 2) * 64 ≤ (i 1).val
      ∧ (i 1).val < win1_4.index ⟨(i 0).val / 10000, ht⟩ (1 : Fin 2) * 64 + 64
    rw [e1]
    omega

/-- REGION 1. After its ten points the output array holds the node update of the aggregate, the projected features,
    the per-row scale and the bias as the region found them. -/
theorem region1 (V : (c : Dev nD) → (b : Ref sig .tc) → Buf (Elt Ideal) ((c : Thread nD τ).loc b)) (c : Dev nD) :
    (dat1 (F := Ideal) V c).arrAt 4 cfg1.N = Cert.Spec.nuS (V c main_v42) (V c main_v29) (V c main_v27) (V c main_arg5) :=
  (dat1 (F := Ideal) V c).arrAt_eq_of_cover 4
    (Cert.Spec.nuS (V c main_v42) (V c main_v29) (V c main_v27) (V c main_arg5))
    (fun t _ => flushed_eq_R1 V c t) cover_R1

end Cert.KernelIdeal.RegVal

end
-- ==== Proof.Region2.lean ====
/-
  The third launch's result array. The launch runs ten grid points; point t reads rows 10000 t … 10000 t + 9999 of
  the 100000 x 64 table in the second launch's result array, as this launch finds it, and the whole 64 x 64 weight, and stores their matrix product — the
  table's block recast to its own shape, the two operands rounded to a narrower format, which over the extended
  reals is the identity, accumulated into zeros — into rows 10000 t … 10000 t + 9999 of the result. Entry (p, q) of
  point t's block is therefore the sum over k of table (10000 t + p, k) * weight (k, q), which is entry
  (10000 t + p, q) of the product of the whole table by the weight; the ten blocks tile the 100000 rows (row r lies
  in block r / 10000), so the array ends holding that product.
-/
import proofs.«431064_j2465311228180_3_alg».proof.Proof.Gen.KernelIdeal.Frame
import proofs.«431064_j2465311228180_3_alg».proof.Proof.Spec
import Idealize.ShloMosaic.Lib.Pipeline.Value
import Idealize.ShloMosaic.Lib.ValueIdx
import Idealize.ShloMosaic.PureOps.Ideal.Laws
import proofs.«431064_j2465311228180_3_alg».proof.Proof.LibContract
set_option maxRecDepth 16384
noncomputable section
namespace Cert.KernelIdeal.RegVal
open Cert.KernelIdeal Cert.KernelIdeal.Gen Idealize.ShloMosaic Idealize.ShloMosaic.TcCoe Idealize.ShloMosaic.ValueIdx Idealize.SL.Sem
open scoped BigOperators

/-- The zero offset vector of a rank-2 block. -/
theorem hz2 : (![0, 0] : Fin 2 → Nat) = fun _ => 0 := funext fun a => by fin_cases a <;> rfl

/-- The three windows' block indices at grid point t, decided over the ten points: the table's and the product's
    windows sit at block row t, column 0; the weight's window is the whole weight at every point. -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's payload at entry (p, q) of a block: the sum over k of x0 (p, k) * x1 (k, q). The recast of
    the first block to its own shape and the two roundings to the narrower format are the identity over the extended
    reals, and the accumulator is zero. -/
theorem pay2_apply (x0 : FVec Ideal S10000x64 .f32) (x1 : FVec Ideal S64x64 .f32) (p : Fin 10000) (q : Fin 64) :
    k2_pay1 (F := Ideal) x0 x1 (ix2 p q) = ∑ k : Fin 64, x0 (ix2 p k) * x1 (ix2 k q) := by
  unfold k2_pay1
  refine (Cert.LibContract.matmul_plain dot_S10000x64_S64x64_S10000x64_1_0_0_1_n_n rfl rfl rfl rfl rfl rfl none
    (truncf .bf16 (shapeCast S10000x64 x0 shapeCasts_S10000x64_S10000x64) bitsLt_bf16_f32)
    (truncf .bf16 x1 bitsLt_bf16_f32) p q).trans ?_
  rw [shapeCast_self]
  rfl

/-- Window 0's block at point t is rows 10000 t … 10000 t + 9999 of the table. -/
theorem rd2_0 (V : (c : Dev nD) → (b : Ref sig .tc) → Buf (Elt Ideal) ((c : Thread nD τ).loc b)) (c : Dev nD)
    (t : Fin cfg2.N) (p : Fin 10000) (k : Fin 64) (i : S100000x64.Idx)
    (h0 : (i 0).val = 10000 * t.val + p.val) (h1 : (i 1).val = k.val) :
    (iblk2 (F := Ideal) V c 0 t : Vec Ideal S10000x64 .f32) (ix2 p k) = (V c main_v43 : S100000x64.Idx → Elt Ideal .f32) i := by
  obtain ⟨e0, e1, -, -, -, -⟩ := idx2 t
  unfold iblk2
  rw [View.read_apply]
  show V c main_v43 _ = V c main_v43 _
  congr 1
  funext a
  apply Fin.ext
  match a with
  | ⟨0, _⟩ => show win2_0.index t (0 : Fin 2) * 10000 + 1 * p.val = (i 0).val; rw [e0, h0]; omega
  | ⟨1, _⟩ => show win2_0.index t (1 : Fin 2) * 64 + 1 * k.val = (i 1).val; rw [e1, h1]; omega

/-- Window 1's block at every point is the whole weight. -/
theorem rd2_1 (V : (c : Dev nD) → (b : Ref sig .tc) → Buf (Elt Ideal) ((c : Thread nD τ).loc b)) (c : Dev nD)
    (t : Fin cfg2.N) (k : Fin 64) (q : Fin 64) (i : S64x64.Idx)
    (h0 : (i 0).val = k.val) (h1 : (i 1).val = q.val) :
    (iblk2 (F := Ideal) V c 1 t : Vec Ideal S64x64 .f32) (ix2 k q) = (V c main_arg6 : S64x64.Idx → Elt Ideal .f32) i := by
  obtain ⟨-, -, e2, e3, -, -⟩ := idx2 t
  unfold iblk2
  rw [View.read_apply]
  show V c main_arg6 _ = V c main_arg6 _
  congr 1
  funext a
  apply Fin.ext
  match a with
  | ⟨0, _⟩ => show win2_1.index t (0 : Fin 2) * 64 + 1 * k.val = (i 0).val; rw [e2, h0]; omega
  | ⟨1, _⟩ => show win2_1.index t (1 : Fin 2) * 64 + 1 * q.val = (i 1).val; rw [e3, h1]; omega

/-- What grid point t writes back to the product's array is block t of the product of the table by the weight:
    at (p, q) of the block, the sum over k of table (10000 t + p, k) * weight (k, q). -/
theorem flushed2 (V : (c : Dev nD) → (b : Ref sig .tc) → Buf (Elt Ideal) ((c : Thread nD τ).loc b)) (c : Dev nD)
    (t : Fin cfg2.N) :
    (dat2 (F := Ideal) V c).flushed 2 t
      = ((cfg2.win 2).blk t).view.read (Elt Ideal) (Cert.Spec.mmS (V c main_v43) (V c main_arg6)) := by
  show (cfg2.win 2).cut (grid2.coords t) ((dat2 (F := Ideal) V c).after 2 t) = _
  rw [after2_2]
  unfold out2_2
  rw [View.canon_unit_zero hz2]
  simp only [View.ld_unit_zero (S := S10000x64) hz2, View.ld_unit_zero (S := S64x64) hz2]
  obtain ⟨-, -, -, -, e4, e5⟩ := idx2 t
  funext j
  obtain ⟨p, q, rfl⟩ : ∃ (p : Fin 10000) (q : Fin 64), j = ix2 p q := ⟨j 0, j 1, eq_ix2 j⟩
  rw [View.read_apply]
  show k2_pay1 (F := Ideal) (iblk2 (F := Ideal) V c 0 t) (iblk2 (F := Ideal) V c 1 t) (ix2 p q)
    = Cert.Spec.mmS (V c main_v43) (V c main_arg6) (((cfg2.win 2).blk t).view.emb (ix2 p q))
  refine (pay2_apply (iblk2 (F := Ideal) V c 0 t) (iblk2 (F := Ideal) V c 1 t) p q).trans ?_
  unfold Cert.Spec.mmS
  refine Finset.sum_congr rfl fun k _ => ?_
  have hr : ((((cfg2.win 2).blk t).view.emb (ix2 p q)) 0).val = 10000 * t.val + p.val := by
    show win2_2.index t (0 : Fin 2) * 10000 + 1 * p.val = _
    rw [e4]; omega
  have hq : ((((cfg2.win 2).blk t).view.emb (ix2 p q)) 1).val = q.val := by
    show win2_2.index t (1 : Fin 2) * 64 + 1 * q.val = _
    rw [e5]; omega
  exact congrArg₂ (· * ·)
    (rd2_0 V c t p k (ix2 ((((cfg2.win 2).blk t).view.emb (ix2 p q)) 0) k) hr rfl)
    (rd2_1 V c t k q (ix2 k ((((cfg2.win 2).blk t).view.emb (ix2 p q)) 1)) rfl hq)

/-- An index of the product's array lies in point t's block iff each coordinate lies in the block's range. -/
theorem mem_blk2 (t : Fin cfg2.N) (i : S100000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v44).slice (win2_2.rect t)).set ↔ _
  rw [View.set_slice_whole, Rect.mem_set_unit]
  exact Iff.rfl

/-- The ten blocks of 10000 rows tile the 100000 rows: row r lies in the block of point r / 10000. -/
theorem cover2 (i : S100000x64.Idx) :
    ∃ t : Fin cfg2.N, (cfg2.win 2).flush t = true ∧ i ∈ ((cfg2.win 2).blk t).view.set := by
  have hi0 : (i 0).val < 100000 := idx2_lt0 i
  have hi1 : (i 1).val < 64 := idx2_lt1 i
  have hN : grid2.N = 10 := N_2
  have ht : (i 0).val / 10000 < grid2.N := by rw [hN]; omega
  refine ⟨⟨(i 0).val / 10000, ht⟩, flush2_2 _, ?_⟩
  rw [mem_blk2]
  obtain ⟨-, -, -, -, e4, e5⟩ := idx2 ⟨(i 0).val / 10000, ht⟩
  intro a
  match a with
  | ⟨0, _⟩ =>
    show win2_2.index ⟨(i 0).val / 10000, ht⟩ (0 : Fin 2) * 10000 ≤ (i 0).val
      ∧ (i 0).val < win2_2.index ⟨(i 0).val / 10000, ht⟩ (0 : Fin 2) * 10000 + 10000
    rw [e4]
    show (i 0).val / 10000 * 10000 ≤ (i 0).val ∧ (i 0).val < (i 0).val / 10000 * 10000 + 10000
    omega
  | ⟨1, _⟩ =>
    show win2_2.index ⟨(i 0).val / 10000, ht⟩ (1 : Fin 2) * 64 ≤ (i 1).val
      ∧ (i 1).val < win2_2.index ⟨(i 0).val / 10000, ht⟩ (1 : Fin 2) * 64 + 64
    rw [e5]
    omega

/-- After the third launch the product's array holds the product of the table by the weight: every point writes
    its block of it, and the blocks cover the array. -/
theorem region2 (V : (c : Dev nD) → (b : Ref sig .tc) → Buf (Elt Ideal) ((c : Thread nD τ).loc b)) (c : Dev nD) :
    (dat2 (F := Ideal) V c).arrAt 2 cfg2.N = Cert.Spec.mmS (V c main_v43) (V c main_arg6) :=
  (dat2 (F := Ideal) V c).arrAt_eq_of_cover 2 (Cert.Spec.mmS (V c main_v43) (V c main_arg6))
    (fun t _ => flushed2 V c t) cover2

end Cert.KernelIdeal.RegVal

end
-- ==== Proof.Region3.lean ====
import proofs.«431064_j2465311228180_3_alg».proof.Proof.Gen.KernelIdeal.Frame
import proofs.«431064_j2465311228180_3_alg».proof.Proof.Spec
import Idealize.ShloMosaic.Lib.Pipeline.Value
import Idealize.ShloMosaic.Lib.ValueIdx
import Idealize.ShloMosaic.PureOps.Ideal.Laws
import Idealize.ShloMosaic.Lib.ValueLayout
set_option maxRecDepth 16384
noncomputable section
namespace Cert.KernelIdeal.RegVal
open Cert.KernelIdeal Cert.KernelIdeal.Gen Idealize.ShloMosaic Idealize.ShloMosaic.TcCoe Idealize.ShloMosaic.ValueIdx Idealize.SL.Sem
open scoped BigOperators

/-! # Region 3: the node update, block by block, is the array function `Cert.Spec.nuS`

The launch has ten grid points; point `t` stages rows `10000 t … 10000 t + 9999` of the aggregate, of the projected
features and of the per-row scale, and the whole bias, and stores into its output block
`max (agg + h * d + b) 0` entry by entry. The ten output blocks tile the 100000 rows, so the output array ends as
`nuS` of the four arrays the region found. -/

theorem hz2_R3 : (![0, 0] : Fin 2 → Nat) = fun _ => 0 := funext fun a => by fin_cases a <;> rfl
theorem hz1_R3 : (![0] : Fin 1 → Nat) = fun _ => 0 := funext fun a => by fin_cases a <;> rfl

/-- An `[a, 1]` array broadcast to `[a, b]` reads, at `(p, c)`, the operand's row `p` at its one column. -/
theorem broadcastTo_a1_ab_apply_R3 {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's payload at entry `(p, q)` of the block: the bias is cast `[64] → [1, 64]` and broadcast down the rows,
    the scale `[10000, 1]` is broadcast along the columns, the casts of a shape to itself are the identity, and the
    zero word is the extended real `0`. -/
theorem pay_apply_R3 (v0 : Vec Ideal S64 .f32) (v4 v6 : Vec Ideal S10000x64 .f32) (v8 : Vec Ideal S10000x1 .f32)
    (p : Fin 10000) (q : Fin 64) :
    (k3_pay1 (F := Ideal) v0 v4 v6 v8) (ix2 p q)
      = max (v4 (ix2 p q) + v6 (ix2 p q) * v8 (ix2 p (0 : Fin 1)) + v0 (ix1 q)) (0 : EReal) := by
  unfold k3_pay1
  simp only [shapeCast_self]
  rw [maximumf_apply, addf_apply, addf_apply, mulf_apply, broadcast_apply, broadcastTo_a1_ab_apply_R3,
    broadcastTo_1b_ab_apply, shapeCast_a_1a_apply]
  show max _ (Ideal.ofBits .f32 0x00000000#32) = _
  rw [Ideal.ofBits_zero_f32]

/-- One entry of a block against one entry of the arrays: if the four staged values at `(p, q)`, `(p, 0)` and `q` are
    the arrays' at row `r`, the payload there is `nuS` at `(r, q)`. -/
theorem point_R3 (x0 x1 : Vec Ideal S10000x64 .f32) (x2 : Vec Ideal S10000x1 .f32) (x3 : Vec Ideal S64 .f32)
    (A H : FVec Ideal ⟨2, ![100000, 64]⟩ .f32) (D : FVec Ideal ⟨2, ![100000, 1]⟩ .f32) (B : FVec Ideal ⟨1, ![64]⟩ .f32)
    (r : Fin 100000) (p : Fin 10000) (q : Fin 64)
    (h0 : x0 (ix2 p q) = A (ix2 r q)) (h1 : x1 (ix2 p q) = H (ix2 r q))
    (h2 : x2 (ix2 p (0 : Fin 1)) = D (ix2 r (0 : Fin 1))) (h3 : x3 (ix1 q) = B (ix1 q)) :
    (k3_pay1 (F := Ideal) x3 x0 x1 x2) (ix2 p q) = Cert.Spec.nuS A H D B (ix2 r q) := by
  rw [pay_apply_R3, h0, h1, h2, h3]
  rfl

/-- The printed index maps, decided over the ten grid points: the row-blocked windows sit at block `(t, 0)`, the bias
    at block `0`. -/
theorem idx_facts_R3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 1) = 0
    ∧ win3_4.index t (0 : Fin 2) = t.val ∧ win3_4.index t (1 : Fin 2) = 0 :=
  (by decide +kernel : ∀ t : Fin grid3.N, _)

/-- Row `p` of point `t`'s block is row `10000 t + p` of the array. -/
def row_R3 (t : Fin cfg3.N) (p : Fin 10000) : Fin 100000 :=
  ⟨10000 * t.val + p.val, by have hN : cfg3.N = 10 := N_3; have := t.isLt; have := p.isLt; omega⟩

/-- The aggregate's block at point `t`, entry `(p, q)`, is the array's entry `(10000 t + p, q)`. -/
theorem blk0_apply_R3 (V : (c : Dev nD) → (b : Ref sig .tc) → Buf (Elt Ideal) ((c : Thread nD τ).loc b)) (c : Dev nD)
    (t : Fin cfg3.N) (p : Fin 10000) (q : Fin 64) :
    (iblk3 (F := Ideal) V c 0 t : Vec Ideal S10000x64 .f32) (ix2 p q)
      = (V c main_v57 : FVec Ideal ⟨2, ![100000, 64]⟩ .f32) (ix2 (row_R3 t p) q) := by
  obtain ⟨e0, e1, -⟩ := idx_facts_R3 t
  unfold iblk3
  rw [View.read_apply]
  show V c main_v57 _ = V c main_v57 _
  congr 1
  funext a
  apply Fin.ext
  match a with
  | ⟨0, _⟩ => show win3_0.index t (0 : Fin 2) * 10000 + 1 * p.val = 10000 * t.val + p.val; omega
  | ⟨1, _⟩ => show win3_0.index t (1 : Fin 2) * 64 + 1 * q.val = q.val; omega

/-- The projected features' block at point `t`, entry `(p, q)`, is the array's entry `(10000 t + p, q)`. -/
theorem blk1_apply_R3 (V : (c : Dev nD) → (b : Ref sig .tc) → Buf (Elt Ideal) ((c : Thread nD τ).loc b)) (c : Dev nD)
    (t : Fin cfg3.N) (p : Fin 10000) (q : Fin 64) :
    (iblk3 (F := Ideal) V c 1 t : Vec Ideal S10000x64 .f32) (ix2 p q)
      = (V c main_v44 : FVec Ideal ⟨2, ![100000, 64]⟩ .f32) (ix2 (row_R3 t p) q) := by
  obtain ⟨-, -, e0, e1, -⟩ := idx_facts_R3 t
  unfold iblk3
  rw [View.read_apply]
  show V c main_v44 _ = V c main_v44 _
  congr 1
  funext a
  apply Fin.ext
  match a with
  | ⟨0, _⟩ => show win3_1.index t (0 : Fin 2) * 10000 + 1 * p.val = 10000 * t.val + p.val; omega
  | ⟨1, _⟩ => show win3_1.index t (1 : Fin 2) * 64 + 1 * q.val = q.val; omega

/-- The scale's block at point `t`, entry `(p, 0)`, is the array's entry `(10000 t + p, 0)`. -/
theorem blk2_apply_R3 (V : (c : Dev nD) → (b : Ref sig .tc) → Buf (Elt Ideal) ((c : Thread nD τ).loc b)) (c : Dev nD)
    (t : Fin cfg3.N) (p : Fin 10000) :
    (iblk3 (F := Ideal) V c 2 t : Vec Ideal S10000x1 .f32) (ix2 p (0 : Fin 1))
      = (V c main_v27 : FVec Ideal ⟨2, ![100000, 1]⟩ .f32) (ix2 (row_R3 t p) (0 : Fin 1)) := by
  obtain ⟨-, -, -, -, e0, e1, -⟩ := idx_facts_R3 t
  unfold iblk3
  rw [View.read_apply]
  show V c main_v27 _ = V c main_v27 _
  congr 1
  funext a
  apply Fin.ext
  match a with
  | ⟨0, _⟩ => show win3_2.index t (0 : Fin 2) * 10000 + 1 * p.val = 10000 * t.val + p.val; omega
  | ⟨1, _⟩ => show win3_2.index t (1 : Fin 2) * 1 + 1 * 0 = 0; omega

/-- The bias is staged whole at every point: its block's entry `q` is the array's entry `q`. -/
theorem blk3_apply_R3 (V : (c : Dev nD) → (b : Ref sig .tc) → Buf (Elt Ideal) ((c : Thread nD τ).loc b)) (c : Dev nD)
    (t : Fin cfg3.N) (q : Fin 64) :
    (iblk3 (F := Ideal) V c 3 t : Vec Ideal S64 .f32) (ix1 q)
      = (V c main_arg7 : FVec Ideal ⟨1, ![64]⟩ .f32) (ix1 q) := by
  obtain ⟨-, -, -, -, -, -, e0, -⟩ := idx_facts_R3 t
  unfold iblk3
  rw [View.read_apply]
  show V c main_arg7 _ = V c main_arg7 _
  congr 1
  funext a
  apply Fin.ext
  match a with
  | ⟨0, _⟩ => show win3_3.index t (0 : Fin 1) * 64 + 1 * q.val = q.val; omega

/-- Entry `(p, q)` of the output's block at point `t` lies at `(10000 t + p, q)` in the output array. -/
theorem emb4_R3 (t : Fin cfg3.N) (p : Fin 10000) (q : Fin 64) :
    (((cfg3.win 4).blk t).view.emb (ix2 p q) : S100000x64.Idx) = ix2 (row_R3 t p) q := by
  obtain ⟨-, -, -, -, -, -, -, e0, e1⟩ := idx_facts_R3 t
  funext a
  apply Fin.ext
  match a with
  | ⟨0, _⟩ => show win3_4.index t (0 : Fin 2) * 10000 + 1 * p.val = 10000 * t.val + p.val; omega
  | ⟨1, _⟩ => show win3_4.index t (1 : Fin 2) * 64 + 1 * q.val = q.val; omega

/-- What point `t` writes back is block `t` of `nuS` of the four arrays as the region finds them. -/
theorem flushed_eq_R3 (V : (c : Dev nD) → (b : Ref sig .tc) → Buf (Elt Ideal) ((c : Thread nD τ).loc b)) (c : Dev nD)
    (t : Fin cfg3.N) :
    (dat3 (F := Ideal) V c).flushed 4 t
      = ((cfg3.win 4).blk t).view.read (Elt Ideal)
          (Cert.Spec.nuS (V c main_v57) (V c main_v44) (V c main_v27) (V c main_arg7)) := by
  show (cfg3.win 4).cut (grid3.coords t) ((dat3 V c).after 4 t) = _
  rw [after3_4]
  unfold out3_4
  rw [View.canon_unit_zero hz2_R3]
  simp only [View.ld_unit_zero (S := S10000x64) hz2_R3, View.ld_unit_zero (S := S10000x1) hz2_R3,
    View.ld_unit_zero (S := S64) hz1_R3]
  funext j
  obtain ⟨p, q, rfl⟩ : ∃ (p : Fin 10000) (q : Fin 64), j = ix2 p q := ⟨j 0, j 1, eq_ix2 j⟩
  rw [View.read_apply, emb4_R3]
  exact point_R3 (iblk3 V c 0 t) (iblk3 V c 1 t) (iblk3 V c 2 t) (iblk3 V c 3 t)
    (V c main_v57) (V c main_v44) (V c main_v27) (V c main_arg7) (row_R3 t p) p q
    (blk0_apply_R3 V c t p q) (blk1_apply_R3 V c t p q) (blk2_apply_R3 V c t p) (blk3_apply_R3 V c t q)

/-- An index of the output array is in point `t`'s block iff each coordinate is in the block's range on its axis. -/
theorem mem_blk_R3 (t : Fin cfg3.N) (i : S100000x64.Idx) :
    i ∈ ((cfg3.win 4).blk t).view.set ↔ ∀ a : Fin 2, win3_4.index t a * S10000x64.size a ≤ (i a).val
      ∧ (i a).val < win3_4.index t a * S10000x64.size a + S10000x64.size a := by
  show i ∈ ((View.whole main_v58).slice (win3_4.rect t)).set ↔ _
  rw [View.set_slice_whole, Rect.mem_set_unit]
  exact Iff.rfl

/-- The ten blocks of 10000 rows tile the 100000 rows: row `r` is in the block of point `r / 10000`. -/
theorem cover_R3 (i : S100000x64.Idx) :
    ∃ t : Fin cfg3.N, (cfg3.win 4).flush t = true ∧ i ∈ ((cfg3.win 4).blk t).view.set := by
  have hN : cfg3.N = 10 := N_3
  have hi0 : (i 0).val < 100000 := (i 0).isLt
  have hi1 : (i 1).val < 64 := (i 1).isLt
  have ht : (i 0).val / 10000 < cfg3.N := by rw [hN]; omega
  obtain ⟨-, -, -, -, -, -, -, e0, e1⟩ := idx_facts_R3 ⟨(i 0).val / 10000, ht⟩
  refine ⟨⟨(i 0).val / 10000, ht⟩, flush3_4 _, ?_⟩
  rw [mem_blk_R3]
  intro a
  match a with
  | ⟨0, _⟩ =>
    show win3_4.index ⟨(i 0).val / 10000, ht⟩ (0 : Fin 2) * 10000 ≤ (i 0).val
      ∧ (i 0).val < win3_4.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win3_4.index ⟨(i 0).val / 10000, ht⟩ (1 : Fin 2) * 64 ≤ (i 1).val
      ∧ (i 1).val < win3_4.index ⟨(i 0).val / 10000, ht⟩ (1 : Fin 2) * 64 + 64
    rw [e1]
    omega

/-- REGION 3. After its ten points the output array holds the node update of the aggregate, the projected features,
    the per-row scale and the bias as the region found them. -/
theorem region3 (V : (c : Dev nD) → (b : Ref sig .tc) → Buf (Elt Ideal) ((c : Thread nD τ).loc b)) (c : Dev nD) :
    (dat3 (F := Ideal) V c).arrAt 4 cfg3.N = Cert.Spec.nuS (V c main_v57) (V c main_v44) (V c main_v27) (V c main_arg7) :=
  (dat3 (F := Ideal) V c).arrAt_eq_of_cover 4
    (Cert.Spec.nuS (V c main_v57) (V c main_v44) (V c main_v27) (V c main_arg7))
    (fun t _ => flushed_eq_R3 V c t) cover_R3

end Cert.KernelIdeal.RegVal

end
-- ==== Proof.PoolAlg.lean ====
/-
  The algebra of pooling by a one-hot product, over the extended reals: a product that contracts the row axis of both
  operands, the one-hot entry as an indicator, one block's contribution, and the ten blocks regrouped into the sum over
  all rows.
-/
import proofs.«431064_j2465311228180_3_alg».proof.Proof.Spec
import Idealize.ShloMosaic.PureOps.Ideal
import Idealize.ShloMosaic.PureOps.Ideal.Laws
import Idealize.ShloMosaic.Lib.ValueIdx

noncomputable section

namespace Cert.PoolAlg

open Idealize.ShloMosaic Idealize.ShloMosaic.ValueIdx
open scoped BigOperators

/-- One block's contribution to entry (g, j): the sum, over the block's rows whose graph word read signed is g, of
    x (r, j). -/
def blockSum (x : FVec Ideal ⟨2, ![10000, 64]⟩ .f32) (b : IVec ⟨2, ![10000, 1]⟩ 32) : FVec Ideal ⟨2, ![64, 64]⟩ .f32 :=
  fun i => ∑ r : Fin 10000, if (b (ix2 r (0 : Fin 1))).toInt = ((i 0).val : ℤ) then x (ix2 r (i 1)) else 0

/-- The dimension numbers `[0] × [0]`, kept axes `[1]` and `[1]`, no batch axes, over any proof that they are
    well formed. -/
private abbrev lit {M A B : ℕ} (wf : DotDims.WF ⟨2, ![M, A]⟩ ⟨2, ![M, B]⟩ ⟨2, ![A, B]⟩ [0] [0] [1] [1] [] []) :
    DotDims ⟨2, ![M, A]⟩ ⟨2, ![M, B]⟩ ⟨2, ![A, B]⟩ :=
  ⟨[0], [0], [1], [1], [], [], wf⟩

section Axes
variable {M A B : ℕ} (wf : DotDims.WF ⟨2, ![M, A]⟩ ⟨2, ![M, B]⟩ ⟨2, ![A, B]⟩ [0] [0] [1] [1] [] [])

/-- The left operand's contracted axis reads the contraction position. -/
private theorem lhs_0 (i : (⟨2, ![A, B]⟩ : Shape).Idx) (q : (lit wf).contr.Idx) :
    ((lit wf).lhsIdx i q 0).val = (q ⟨0, Nat.one_pos⟩).val :=
  (lit wf).lhsIdx_val_of_single rfl i q

/-- The left operand's kept axis reads the result's row. -/
private theorem lhs_1 (i : (⟨2, ![A, B]⟩ : Shape).Idx) (q : (lit wf).contr.Idx) :
    ((lit wf).lhsIdx i q 1).val = (i 0).val := by
  unfold DotDims.lhsIdx
  rw [dif_neg (show ¬(1 : Fin (⟨2, ![M, A]⟩ : Shape).rank) ∈ (lit wf).lhsBatch from List.not_mem_nil),
    dif_pos (show (1 : Fin (⟨2, ![M, A]⟩ : Shape).rank) ∈ (lit wf).lhsNonContracting from List.mem_singleton.mpr rfl)]
  rfl

/-- The right operand's contracted axis reads the contraction position. -/
private theorem rhs_0 (i : (⟨2, ![A, B]⟩ : Shape).Idx) (q : (lit wf).contr.Idx) :
    ((lit wf).rhsIdx i q 0).val = (q ⟨0, Nat.one_pos⟩).val :=
  (lit wf).rhsIdx_val_of_single rfl i q

/-- The right operand's kept axis reads the result's column. -/
private theorem rhs_1 (i : (⟨2, ![A, B]⟩ : Shape).Idx) (q : (lit wf).contr.Idx) :
    ((lit wf).rhsIdx i q 1).val = (i 1).val := by
  unfold DotDims.rhsIdx
  rw [dif_neg (show ¬(1 : Fin (⟨2, ![M, B]⟩ : Shape).rank) ∈ (lit wf).rhsBatch from List.not_mem_nil),
    dif_pos (show (1 : Fin (⟨2, ![M, B]⟩ : Shape).rank) ∈ (lit wf).rhsNonContracting from List.mem_singleton.mpr rfl)]
  rfl

/-- The contraction's sum over its one-axis index set is the sum over `Fin M`, the operands read at (r, g) and
    (r, j): re-index through the bijection of the one-axis index set with `Fin M`, then compare the operand
    indices axis by axis. -/
private theorem contr_lit {φ₁ φ₂ : FTy} (lhs : FVec Ideal ⟨2, ![M, A]⟩ φ₁) (rhs : FVec Ideal ⟨2, ![M, B]⟩ φ₂)
    (g : Fin A) (j : Fin B) :
    ∑ k : (lit wf).contr.Idx, lhs ((lit wf).lhsIdx (ix2 g j) k) * rhs ((lit wf).rhsIdx (ix2 g j) k)
      = ∑ r : Fin M, lhs (ix2 r g) * rhs (ix2 r j) := by
  rw [← Equiv.sum_comp (ValueIdx.contrEquiv1 (lit wf) M rfl rfl).symm]
  refine Finset.sum_congr rfl fun k _ => ?_
  have hk := ValueIdx.contrEquiv1_symm_val (lit wf) M rfl rfl k
  have el : (lit wf).lhsIdx (ix2 g j) ((ValueIdx.contrEquiv1 (lit wf) M rfl rfl).symm k) = ix2 k g :=
    funext fun a => Fin.ext (by
      match a with
      | ⟨0, _⟩ => exact (lhs_0 wf _ _).trans hk
      | ⟨1, _⟩ => exact lhs_1 wf _ _)
  have er : (lit wf).rhsIdx (ix2 g j) ((ValueIdx.contrEquiv1 (lit wf) M rfl rfl).symm k) = ix2 k j :=
    funext fun a => Fin.ext (by
      match a with
      | ⟨0, _⟩ => exact (rhs_0 wf _ _).trans hk
      | ⟨1, _⟩ => exact rhs_1 wf _ _)
  rw [el, er]

end Axes

/-- The same for any dimension numbers whose six lists are those: the record is then that literal one. -/
private theorem contr_colcol {M A B : ℕ} {φ₁ φ₂ : FTy} (d : DotDims ⟨2, ![M, A]⟩ ⟨2, ![M, B]⟩ ⟨2, ![A, B]⟩)
    (hlc : d.lhsContracting = [0]) (hrc : d.rhsContracting = [0]) (hln : d.lhsNonContracting = [1])
    (hrn : d.rhsNonContracting = [1]) (hlb : d.lhsBatch = []) (hrb : d.rhsBatch = [])
    (lhs : FVec Ideal ⟨2, ![M, A]⟩ φ₁) (rhs : FVec Ideal ⟨2, ![M, B]⟩ φ₂) (g : Fin A) (j : Fin B) :
    ∑ k : d.contr.Idx, lhs (d.lhsIdx (ix2 g j) k) * rhs (d.rhsIdx (ix2 g j) k)
      = ∑ r : Fin M, lhs (ix2 r g) * rhs (ix2 r j) := by
  obtain ⟨lc, rc, ln, rn, lb, rb, wf⟩ := d
  simp only at hlc hrc hln hrn hlb hrb
  subst hlc hrc hln hrn hlb hrb
  exact contr_lit wf lhs rhs g j

/-- The product of an [M, A] by an [M, B] matrix contracting the row axis of both (no batch axes), accumulated into
    zeros and read at (g, j): the sum over r of lhs (r, g) * rhs (r, j). -/
theorem matmul_colcol {M A B : ℕ} {φ₁ φ₂ : FTy} (d : DotDims ⟨2, ![M, A]⟩ ⟨2, ![M, B]⟩ ⟨2, ![A, B]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (lhs : FVec Ideal ⟨2, ![M, A]⟩ φ₁) (rhs : FVec Ideal ⟨2, ![M, B]⟩ φ₂)
    (g : Fin A) (j : Fin B) :
    matmul d prec lhs rhs (constant ⟨2, ![A, B]⟩ .f32 0x00000000#32) (ix2 g j)
      = ∑ r : Fin M, lhs (ix2 r g) * rhs (ix2 r j) := by
  simp only [matmul]
  rw [Ideal.matmul_constant_zero_apply]
  exact contr_colcol d hlc hrc hln hrn hlb hrb lhs rhs g j

/-- The word of a number below 64, read signed, is that number: it is below half the word range. -/
private theorem toInt_ofNat_small (g : Fin 64) : (BitVec.ofNat 32 g.val).toInt = (g.val : ℤ) := by
  have hg := g.isLt
  have h1 : (BitVec.ofNat 32 g.val).toNat = g.val := by
    rw [BitVec.toNat_ofNat]; omega
  rw [BitVec.toInt_eq_toNat_of_lt (by rw [h1]; omega), h1]

/-- A one-hot entry times a value: the equality test of a 32-bit word against the word of g < 64, widened to 32 bits
    and converted to a float, times y, is y when the word read signed is g and 0 otherwise. -/
theorem onehot_mul (w : BitVec 32) (g : Fin 64) (y : EReal) :
    (FloatOps.sitofp (F := Ideal) .f32 ((IntOp.cmpi .eq w (BitVec.ofNat 32 g.val)).setWidth 32) : Ideal .f32) * y
      = if w.toInt = (g.val : ℤ) then y else 0 := by
  show (((((IntOp.cmpi .eq w (BitVec.ofNat 32 g.val)).setWidth 32).toInt : ℤ) : ℝ) : EReal) * y = _
  by_cases hw : w = BitVec.ofNat 32 g.val
  · have hc : IntOp.cmpi .eq w (BitVec.ofNat 32 g.val) = 1#1 := by
      simp [IntOp.cmpi, hw]
    have h1 : ((1#1 : BitVec 1).setWidth 32).toInt = 1 := by decide
    rw [hc, h1, if_pos (hw ▸ toInt_ofNat_small g)]
    simp
  · have hc : IntOp.cmpi .eq w (BitVec.ofNat 32 g.val) = 0#1 := by
      show BitVec.ofBool (w == BitVec.ofNat 32 g.val) = 0#1
      rw [beq_eq_false_iff_ne.mpr hw]
      rfl
    have h0 : ((0#1 : BitVec 1).setWidth 32).toInt = 0 := by decide
    have hne : ¬ w.toInt = (g.val : ℤ) := fun h => hw (BitVec.eq_of_toInt_eq (h.trans (toInt_ofNat_small g).symm))
    rw [hc, h0, if_neg hne]
    simp

/-- Row n of the whole table is row n mod 10000 of block n div 10000. -/
private def blockEquiv : Fin 10 × Fin 10000 ≃ Fin 100000 where
  toFun p := ⟨p.1.val * 10000 + p.2.val, by have := p.1.isLt; have := p.2.isLt; omega⟩
  invFun n := (⟨n.val / 10000, by have := n.isLt; omega⟩, ⟨n.val % 10000, by omega⟩)
  left_inv p := by
    rcases p with ⟨s, r⟩
    have hs := s.isLt
    have hr := r.isLt
    refine Prod.ext (Fin.ext ?_) (Fin.ext ?_)
    · show (s.val * 10000 + r.val) / 10000 = s.val
      omega
    · show (s.val * 10000 + r.val) % 10000 = r.val
      omega
  right_inv n := by
    refine Fin.ext ?_
    show n.val / 10000 * 10000 + n.val % 10000 = n.val
    omega

/-- A sum over the 100000 rows is the sum over the ten blocks of the sums over each block's 10000 rows. -/
private theorem sum_blocks {α : Type*} [AddCommMonoid α] (f : Fin 100000 → α) :
    ∑ s : Fin 10, ∑ r : Fin 10000,
        f ⟨s.val * 10000 + r.val, by have := s.isLt; have := r.isLt; omega⟩
      = ∑ n : Fin 100000, f n := by
  rw [← Equiv.sum_comp blockEquiv f, Fintype.sum_prod_type]
  rfl

/-- The ten blocks' contributions add up to the pooled sum: block s holds rows 10000 s … 10000 s + 9999. -/
theorem pool_of_blocks (h : FVec Ideal ⟨2, ![100000, 64]⟩ .f32) (bt : IVec ⟨2, ![100000, 1]⟩ 32)
    (xs : Fin 10 → FVec Ideal ⟨2, ![10000, 64]⟩ .f32) (bs : Fin 10 → IVec ⟨2, ![10000, 1]⟩ 32)
    (hx : ∀ (s : Fin 10) (r : Fin 10000) (j : Fin 64),
      xs s (ix2 r j) = h (ix2 ⟨s.val * 10000 + r.val, by have := s.isLt; have := r.isLt; omega⟩ j))
    (hb : ∀ (s : Fin 10) (r : Fin 10000),
      bs s (ix2 r (0 : Fin 1)) = bt (ix2 ⟨s.val * 10000 + r.val, by have := s.isLt; have := r.isLt; omega⟩ (0 : Fin 1)))
    (i : (⟨2, ![64, 64]⟩ : Shape).Idx) :
    ∑ s : Fin 10, blockSum (xs s) (bs s) i = Cert.Spec.poolS h bt i := by
  show ∑ s : Fin 10, ∑ r : Fin 10000,
      (if ((bs s) (ix2 r (0 : Fin 1))).toInt = ((i 0).val : ℤ) then (xs s) (ix2 r (i 1)) else 0)
    = ∑ n : Fin 100000, if (bt (ix2 n (0 : Fin 1))).toInt = ((i 0).val : ℤ) then h (ix2 n (i 1)) else 0
  rw [← sum_blocks (fun n : Fin 100000 =>
    if (bt (ix2 n (0 : Fin 1))).toInt = ((i 0).val : ℤ) then h (ix2 n (i 1)) else 0)]
  refine Finset.sum_congr rfl fun s _ => Finset.sum_congr rfl fun r _ => ?_
  rw [hx s r (i 1), hb s r]

end Cert.PoolAlg

end
-- ==== Proof.Region4.lean ====
import proofs.«431064_j2465311228180_3_alg».proof.Proof.Gen.KernelIdeal.Frame
import proofs.«431064_j2465311228180_3_alg».proof.Proof.Spec
import Idealize.ShloMosaic.Lib.Pipeline.Value
import Idealize.ShloMosaic.Lib.ValueIdx
import Idealize.ShloMosaic.PureOps.Ideal.Laws
import proofs.«431064_j2465311228180_3_alg».proof.Proof.PoolAlg
set_option maxRecDepth 16384
noncomputable section
namespace Cert.KernelIdeal.RegVal
open Cert.KernelIdeal Cert.KernelIdeal.Gen Idealize.ShloMosaic Idealize.ShloMosaic.TcCoe Idealize.ShloMosaic.ValueIdx Idealize.SL.Sem
open scoped BigOperators

/-!
  The pooling launch. Its grid has ten points; point t stages rows 10000 t … 10000 t + 9999 of the node features and
  of the graph numbers, and the output block [64, 64] stays in its buffer over all ten points. At point 0 the buffer is
  reset to zeros; at every point the product of the block's one-hot matrix (row r, column g: is the graph word of row r
  the word of g) transposed with the block's features is added to it; the buffer is written back once, after point 9.

  Over the extended reals the product at (g, j) is the sum over the block's rows whose graph word is g of the feature
  (r, j), so after point n the buffer holds the sum of the contributions of blocks 0 … n (by induction on the point),
  and after point 9 the ten contributions, regrouped, are the sum over all 100000 rows: the pooled sums. The block
  written back at point 9 is the whole output array.
-/

namespace R4

/-! ## What each case leaves in the output's buffer -/

section Pieces

variable {F : FTy → Type} [FloatOps F]

/-- The two zero offsets of a whole-block access, as the constant-zero function. -/
theorem hz2 : (![0, 0] : Fin 2 → Nat) = fun _ => 0 := funext fun a => by fin_cases a <;> rfl

/-- At a later point the body leaves, in the output's buffer holding `xo2`, the update of `xo2` by the point's two
    input blocks: its one store covers the buffer and its three loads read whole buffers. -/
theorem piece_B (c : Dev nD) (i : grid4.Coords) (a1 : Memref sig .tc .vmem S10000x64 .f32) (h1 : a1.IsWhole)
    (a2 : Memref sig .tc .vmem S10000x1 .i32) (h2 : a2.IsWhole) (a3 : Memref sig .tc .vmem S64x64 .f32) (h3 : a3.IsWhole)
    (hc : ¬cond4_0 i) (x0 : Vec F S10000x64 .f32) (x1 : Vec F S10000x1 .i32) (xo2 : Vec F S64x64 .f32) :
    out4_B_2 c i a1 h1 a2 h2 a3 h3 hc x0 x1 xo2 = k4_pay2 x1 x0 xo2 := by
  unfold out4_B_2
  rw [View.read_writes_eq_canon _ _ _ (cover4_B_2 c i a1 h1 a2 h2 a3 h3 hc x0 x1 xo2)]
  unfold kernelRun4_B
  dsimp only
  sl_unfold_words
  rw [View.canon_unit_zero (S := S64x64) hz2]
  simp only [View.readAt_eq_ld, h1.read_unread, h2.read_unread, h3.read_unread, View.ld_unit_zero (S := S10000x64) hz2,
    View.ld_unit_zero (S := S10000x1) hz2, View.ld_unit_zero (S := S64x64) hz2]

/-- At the first point the body stores the zero block, reads it back, and leaves the update of the zero block by the
    point's two input blocks: the later store covers the buffer. -/
theorem piece_A (c : Dev nD) (i : grid4.Coords) (a1 : Memref sig .tc .vmem S10000x64 .f32) (h1 : a1.IsWhole)
    (a2 : Memref sig .tc .vmem S10000x1 .i32) (h2 : a2.IsWhole) (a3 : Memref sig .tc .vmem S64x64 .f32) (h3 : a3.IsWhole)
    (hc : cond4_0 i) (x0 : Vec F S10000x64 .f32) (x1 : Vec F S10000x1 .i32) :
    out4_A_2 c i a1 h1 a2 h2 a3 h3 hc x0 x1 = k4_pay2 x1 x0 (k4_pay1 (F := F)) := by
  unfold out4_A_2
  rw [View.read_writes_eq_canon _ _ _ (cover4_A_2 c i a1 h1 a2 h2 a3 h3 hc x0 x1)]
  unfold kernelRun4_A
  dsimp only
  sl_unfold_words
  rw [View.canon_cons_unit_zero (S := S64x64) hz2, View.readCov_unit_zero (S := S64x64) _ hz2]
  simp only [View.readAt_eq_ld, h1.read_unread, h2.read_unread, View.ld_unit_zero (S := S10000x64) hz2,
    View.ld_unit_zero (S := S10000x1) hz2]

end Pieces

/-! ## The update at an index, over the extended reals -/

/-- The one-hot operand of the pooling product at (r, g): the graph word of row r tested against the word of g, widened
    and converted. The broadcast along columns reads row r's word; the column counter at (r, g) is the word of g; the
    change of float format is the identity over the extended reals. -/
theorem onehot_entry (v4 : IVec S10000x1 32) (r : Fin 10000) (g : Fin 64) :
    (truncf .bf16 (sitofp (F := Ideal) .f32 (extui 32 (cmpi .eq
        (broadcastTo S10000x64 (shapeCast S10000x1 v4 shapeCasts_S10000x1_S10000x1) broadcasts_S10000x1_S10000x64)
        (iota .tc S10000x64 32 [1] iota_S10000x64_d1_w32)) natLt_1_32)) bitsLt_bf16_f32 : FVec Ideal S10000x64 .bf16) (ix2 r g)
      = (FloatOps.sitofp (F := Ideal) .f32 ((IntOp.cmpi .eq (v4 (ix2 r (0 : Fin 1))) (BitVec.ofNat 32 g.val)).setWidth 32) : Ideal .f32) := by
  have e1 : broadcastTo S10000x64 (shapeCast S10000x1 v4 shapeCasts_S10000x1_S10000x1) broadcasts_S10000x1_S10000x64 (ix2 r g)
      = v4 (ix2 r (0 : Fin 1)) := by
    rw [shapeCast_self]
    refine broadcastTo_apply v4 broadcasts_S10000x1_S10000x64 (ix2 r g) (ix2 r (0 : Fin 1)) (fun a => ?_)
    match a with
    | ⟨0, _⟩ => rfl
    | ⟨1, _⟩ => rfl
  have e2 : iota .tc S10000x64 32 [1] iota_S10000x64_d1_w32 (ix2 r g) = BitVec.ofNat 32 g.val :=
    iota_single_apply .tc S10000x64 32 1 iota_S10000x64_d1_w32 (ix2 r g)
  show (FloatOps.sitofp (F := Ideal) .f32 ((IntOp.cmpi .eq
      (broadcastTo S10000x64 (shapeCast S10000x1 v4 shapeCasts_S10000x1_S10000x1) broadcasts_S10000x1_S10000x64 (ix2 r g))
      (iota .tc S10000x64 32 [1] iota_S10000x64_d1_w32 (ix2 r g))).setWidth 32) : Ideal .f32) = _
  rw [e1, e2]

/-- The update at (g, j) over the extended reals: what the buffer held there plus the block's contribution. The product
    contracts the row axis of both operands; each summand is a one-hot entry times a feature, that is the feature when
    the row's graph word is g and zero otherwise. -/
theorem pay2_apply (v4 : IVec S10000x1 32) (v11 : FVec Ideal S10000x64 .f32) (v14 : FVec Ideal S64x64 .f32) (g j : Fin 64) :
    k4_pay2 (F := Ideal) v4 v11 v14 (ix2 g j) = v14 (ix2 g j) + Cert.PoolAlg.blockSum v11 v4 (ix2 g j) := by
  unfold k4_pay2
  dsimp only
  refine (addf_apply _ _ _).trans ?_
  refine congrArg₂ (· + ·) (congrFun (shapeCast_self v14 shapeCasts_S64x64_S64x64) (ix2 g j)) ?_
  refine (Cert.PoolAlg.matmul_colcol dot_S10000x64_S10000x64_S64x64_0_0_1_1_n_n rfl rfl rfl rfl rfl rfl none _ _ g j).trans ?_
  unfold Cert.PoolAlg.blockSum
  refine Finset.sum_congr rfl fun r _ => ?_
  have eR : (truncf .bf16 (shapeCast S10000x64 v11 shapeCasts_S10000x64_S10000x64) bitsLt_bf16_f32 : FVec Ideal S10000x64 .bf16) (ix2 r j)
      = v11 (ix2 r j) := congrFun (shapeCast_self v11 shapeCasts_S10000x64_S10000x64) (ix2 r j)
  exact (congrArg₂ (· * ·) (onehot_entry v4 r g) eR).trans (Cert.PoolAlg.onehot_mul (v4 (ix2 r (0 : Fin 1))) g (v11 (ix2 r j)))

/-! ## The input blocks -/

section Blocks

variable (V : (c : Dev nD) → (b : Ref sig .tc) → Buf (Elt Ideal) ((c : Thread nD τ).loc b)) (c : Dev nD)

/-- The block of features the point t stages: rows 10000 t … 10000 t + 9999 of the node features. -/
abbrev xblk (t : Fin cfg4.N) : Vec Ideal S10000x64 .f32 := iblk4 V c 0 t
/-- The block of graph words the point t stages: rows 10000 t … 10000 t + 9999 of the graph numbers. -/
abbrev bblk (t : Fin cfg4.N) : Vec Ideal S10000x1 .i32 := iblk4 V c 1 t

/-- Point s of the ten, as a point of the launch's grid. -/
abbrev pt (s : Fin 10) : Fin cfg4.N := Fin.cast N_4.symm s

/-- The feature window's block index at point t is (t, 0). -/
theorem idx0 (t : Fin cfg4.N) : win4_0.index t 0 = t.val ∧ win4_0.index t 1 = 0 := by
  rcases fin_N4 t with rfl | rfl | rfl | rfl | rfl | rfl | rfl | rfl | rfl | rfl <;> decide

/-- The graph-word window's block index at point t is (t, 0). -/
theorem idx1 (t : Fin cfg4.N) : win4_1.index t 0 = t.val ∧ win4_1.index t 1 = 0 := by
  rcases fin_N4 t with rfl | rfl | rfl | rfl | rfl | rfl | rfl | rfl | rfl | rfl <;> decide

/-- Entry (r, j) of the feature block at point s is entry (10000 s + r, j) of the node features. -/
theorem xblk_apply (s : Fin 10) (r : Fin 10000) (j : Fin 64) :
    xblk V c (pt s) (ix2 r j)
      = V c main_v58 (ix2 (⟨s.val * 10000 + r.val, by have := s.isLt; have := r.isLt; omega⟩ : Fin 100000) j) := by
  unfold xblk iblk4
  rw [View.read_apply]
  show V c main_v58 _ = V c main_v58 _
  congr 1
  funext a
  apply Fin.ext
  match a with
  | ⟨0, _⟩ =>
    show win4_0.index (pt s) 0 * 10000 + 1 * r.val = s.val * 10000 + r.val
    rw [(idx0 (pt s)).1]; show s.val * 10000 + 1 * r.val = _; omega
  | ⟨1, _⟩ =>
    show win4_0.index (pt s) 1 * 64 + 1 * j.val = j.val
    rw [(idx0 (pt s)).2]; omega

/-- Entry (r, 0) of the graph-word block at point s is entry (10000 s + r, 0) of the graph numbers. -/
theorem bblk_apply (s : Fin 10) (r : Fin 10000) :
    bblk V c (pt s) (ix2 r (0 : Fin 1))
      = V c main_v28 (ix2 (⟨s.val * 10000 + r.val, by have := s.isLt; have := r.isLt; omega⟩ : Fin 100000) (0 : Fin 1)) := by
  unfold bblk iblk4
  rw [View.read_apply]
  show V c main_v28 _ = V c main_v28 _
  congr 1
  funext a
  apply Fin.ext
  match a with
  | ⟨0, _⟩ =>
    show win4_1.index (pt s) 0 * 10000 + 1 * r.val = s.val * 10000 + r.val
    rw [(idx1 (pt s)).1]; show s.val * 10000 + 1 * r.val = _; omega
  | ⟨1, _⟩ =>
    show win4_1.index (pt s) 1 * 1 + 1 * 0 = 0
    rw [(idx1 (pt s)).2]

/-! ## The buffer after each point -/

/-- The contribution of block s to the pooled sums (zero past the ten blocks). -/
def contrib (s : ℕ) : FVec Ideal S64x64 .f32 :=
  if h : s < cfg4.N then Cert.PoolAlg.blockSum (xblk V c ⟨s, h⟩) (bblk V c ⟨s, h⟩) else fun _ => 0

/-- After point n the output's buffer holds, at (g, j), the sum of the contributions of blocks 0 … n: the first point
    resets it to zero and adds block 0's, every later point adds its own. -/
theorem outs_eq : ∀ (n : ℕ) (h : n < cfg4.N) (g j : Fin 64),
    outsAt4 V c n h (ix2 g j) = ∑ s ∈ Finset.range (n + 1), contrib V c s (ix2 g j)
  | 0, h, g, j => by
    have hA : (⟨0, h⟩ : Fin cfg4.N).val % 10 = 0 := rfl
    rw [show outsAt4 V c 0 h = outsAt4 V c (⟨0, h⟩ : Fin cfg4.N).val (⟨0, h⟩ : Fin cfg4.N).isLt from rfl,
      outsAt4_A V c ⟨0, h⟩ hA, piece_A]
    refine (pay2_apply (bblk V c ⟨0, h⟩) (xblk V c ⟨0, h⟩) (k4_pay1 (F := Ideal)) g j).trans ?_
    rw [Finset.sum_range_one, contrib, dif_pos h]
    show Ideal.ofBits .f32 0x00000000#32 + _ = _
    rw [Ideal.ofBits_zero_f32, zero_add]
  | n + 1, h, g, j => by
    have hN : cfg4.N = 10 := N_4
    have hB : ¬(⟨n + 1, h⟩ : Fin cfg4.N).val % 10 = 0 := by dsimp only; omega
    rw [show outsAt4 V c (n + 1) h = outsAt4 V c (⟨n + 1, h⟩ : Fin cfg4.N).val (⟨n + 1, h⟩ : Fin cfg4.N).isLt from rfl,
      outsAt4_B V c ⟨n + 1, h⟩ hB, piece_B]
    refine (pay2_apply (bblk V c ⟨n + 1, h⟩) (xblk V c ⟨n + 1, h⟩) (outsAt4 V c n (Nat.lt_of_succ_lt h)) g j).trans ?_
    rw [Finset.sum_range_succ _ (n + 1), ← outs_eq n (Nat.lt_of_succ_lt h) g j]
    refine congrArg (outsAt4 V c n (Nat.lt_of_succ_lt h) (ix2 g j) + ·) ?_
    rw [contrib, dif_pos h]

end Blocks

/-! ## The array after the run -/

section Final

variable (V : (c : Dev nD) → (b : Ref sig .tc) → Buf (Elt Ideal) ((c : Thread nD τ).loc b)) (c : Dev nD)

/-- After the last point the buffer holds the pooled sums: the ten blocks' contributions, regrouped into the sum over
    all rows. -/
theorem outs_last (h : 9 < cfg4.N) (g j : Fin 64) :
    outsAt4 V c 9 h (ix2 g j) = Cert.Spec.poolS (V c main_v58) (V c main_v28) (ix2 g j) := by
  rw [outs_eq V c 9 h g j, Finset.sum_range (fun s => contrib V c s (ix2 g j))]
  refine Eq.trans (Finset.sum_congr rfl fun s _ => ?_)
    (Cert.PoolAlg.pool_of_blocks (V c main_v58) (V c main_v28) (fun s => xblk V c (pt s)) (fun s => bblk V c (pt s))
      (fun s r j => xblk_apply V c s r j) (fun s r => bblk_apply V c s r) (ix2 g j))
  have hs : s.val < cfg4.N := (pt s).isLt
  rw [contrib, dif_pos hs]
  rfl

/-- The one write-back, at point 9, writes the pooled sums: its block (0, 0) is the whole [64, 64] array. -/
theorem flushed_eq (t : Fin cfg4.N) (hf : (cfg4.win 2).flush t = true) :
    (dat4 (F := Ideal) V c).flushed 2 t
      = ((cfg4.win 2).blk t).view.read (Elt Ideal) (Cert.Spec.poolS (V c main_v58) (V c main_v28)) := by
  have hN : t.val < 10 := lt_of_lt_of_eq t.isLt (show cfg4.N = 10 from N_4)
  have h9 : t.val = 9 := by have := (flush4_2 t).mp hf; omega
  obtain rfl : t = t4_9 := Fin.ext h9
  show (cfg4.win 2).cut (grid4.coords t4_9) ((dat4 (F := Ideal) V c).after 2 t4_9) = _
  rw [after4_2]
  have hz' : (fun a => win4_2.index t4_9 a * main_v59.ty.shape.size a) = fun _ => 0 :=
    funext fun a => by fin_cases a <;> decide
  refine Eq.trans ?_ (Memref.read_access_unit_zero (Elt Ideal) main_v59 hz' (fun a => by rw [congrFun hz' a]; simp)
    (Cert.Spec.poolS (V c main_v58) (V c main_v28))).symm
  funext i
  obtain ⟨g, j, rfl⟩ : ∃ (g j : Fin 64), i = ix2 g j := ⟨i 0, i 1, eq_ix2 i⟩
  exact outs_last V c t4_9.isLt g j

/-- So the output array ends holding the pooled sums: point 9's block covers it. -/
theorem pooled_array :
    (dat4 (F := Ideal) V c).arrAt 2 cfg4.N = Cert.Spec.poolS (V c main_v58) (V c main_v28) :=
  (dat4 (F := Ideal) V c).arrAt_eq_of_cover 2 (Cert.Spec.poolS (V c main_v58) (V c main_v28)) (flushed_eq V c) fun i =>
    ⟨t4_9, (flush4_2 t4_9).mpr rfl, by
      show i ∈ ((View.whole main_v59).slice (win4_2.rect t4_9)).set
      rw [View.set_slice_whole, Rect.mem_set_unit]
      intro a
      have h0 : (i 0 : Nat) < 64 := (i 0).isLt
      have h1 : (i 1 : Nat) < 64 := (i 1).isLt
      match a with
      | ⟨0, _⟩ =>
        show win4_2.index t4_9 0 * win4_2.size 0 ≤ (i 0 : Nat) ∧ (i 0 : Nat) < win4_2.index t4_9 0 * win4_2.size 0 + win4_2.xsize (grid4.coords t4_9) 0
        rw [show win4_2.index t4_9 0 * win4_2.size 0 = 0 from by decide +kernel, show win4_2.xsize (grid4.coords t4_9) 0 = 64 from by decide +kernel]; omega
      | ⟨1, _⟩ =>
        show win4_2.index t4_9 1 * win4_2.size 1 ≤ (i 1 : Nat) ∧ (i 1 : Nat) < win4_2.index t4_9 1 * win4_2.size 1 + win4_2.xsize (grid4.coords t4_9) 1
        rw [show win4_2.index t4_9 1 * win4_2.size 1 = 0 from by decide +kernel, show win4_2.xsize (grid4.coords t4_9) 1 = 64 from by decide +kernel]; omega⟩

end Final

end R4

theorem region4 (V : (c : Dev nD) → (b : Ref sig .tc) → Buf (Elt Ideal) ((c : Thread nD τ).loc b)) (c : Dev nD) :
    (dat4 (F := Ideal) V c).arrAt 2 cfg4.N = Cert.Spec.poolS (V c main_v58) (V c main_v28) :=
  R4.pooled_array V c

end Cert.KernelIdeal.RegVal

end
-- ==== Proof.lean ====
/-
  Two graph-convolution layers, a sum over each graph's nodes, and a last linear map, computed by five launches among
  host operations, against the same network written as plain array operations — equal over the extended reals.
  The two programs share every host operation on the edges (the degree count, the inverse square roots, the gather of
  source rows, the accumulating scatter to destination rows) and the last three operations; they differ in three
  places. The program multiplies the 100000 x 64 node table by a 64 x 64 weight ten row blocks at a time where the
  reference contracts once: each block of the product is the corresponding rows of the whole product. It computes
  max (agg + h * d + b, 0) block by block where the reference does so on whole arrays: pointwise, with the scale d read
  per row and the bias b per column. And it pools by a one-hot product accumulated over the ten blocks, where the
  reference scatters rows to their graph number: at (g, j) both are the sum of h (n, j) over the nodes n whose graph
  number is g — a number outside 0 … 63 matches no column of the one-hot table and is dropped by the scatter alike,
  and 0 * y = 0 holds for every extended real, so no finiteness of the inputs is used.
-/
import proofs.«431064_j2465311228180_3_alg».proof.Defs
import proofs.«431064_j2465311228180_3_alg».proof.Proof.Gen.Kernel
import proofs.«431064_j2465311228180_3_alg».proof.Proof.Gen.Kernel.Frame
import proofs.«431064_j2465311228180_3_alg».proof.Proof.Gen.KernelIdeal
import proofs.«431064_j2465311228180_3_alg».proof.Proof.Gen.KernelIdeal.Frame
import proofs.«431064_j2465311228180_3_alg».proof.Proof.Gen.ReferenceIdeal
import proofs.«431064_j2465311228180_3_alg».proof.Proof.Gen.Pre_finite_inputs
import proofs.«431064_j2465311228180_3_alg».proof.Proof.RefRun
import proofs.«431064_j2465311228180_3_alg».proof.Proof.RunMain
import proofs.«431064_j2465311228180_3_alg».proof.Proof.Chain
import proofs.«431064_j2465311228180_3_alg».proof.Proof.Region0
import proofs.«431064_j2465311228180_3_alg».proof.Proof.Region1
import proofs.«431064_j2465311228180_3_alg».proof.Proof.Region2
import proofs.«431064_j2465311228180_3_alg».proof.Proof.Region3
import proofs.«431064_j2465311228180_3_alg».proof.Proof.Region4

set_option maxRecDepth 16384

noncomputable section

namespace Cert.Proof

open Idealize.ShloMosaic Idealize.ShloMosaic.TcCoe Idealize.SL.Sem

/-- The word-level program's frame: the generated frame of its five launches and four host stretches. -/
theorem frame_k : Cert.frame_Kernel := fun m ρ _ => Cert.Kernel.Gen.frame m ρ

/-- The same for the program read over the extended reals. -/
theorem frame_ki : Cert.frame_KernelIdeal := fun m ρ _ => Cert.KernelIdeal.Gen.frame m ρ

/-- The reference has no launch: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The five launches' output arrays as array functions of their input arrays. -/
theorem regions : Cert.KernelIdeal.Chain.Regions :=
  ⟨Cert.KernelIdeal.RegVal.region0, Cert.KernelIdeal.RegVal.region1, Cert.KernelIdeal.RegVal.region2,
    Cert.KernelIdeal.RegVal.region3, Cert.KernelIdeal.RegVal.region4⟩

/-- Both programs end with the reference's last stage of the ten argument arrays in their result buffer: the program
    by the walk through its boundaries, the reference by its run, the arguments agreeing. -/
theorem algebraic : Cert.algebraic_KernelIdeal_ReferenceIdeal := by
  intro m ρ m' ρ' _ hagree
  refine ⟨fun c => Cert.ReferenceIdeal.Read.val_main_v105 (F := Ideal)
      (Cert.KernelIdeal.Chain.x0 m c) (Cert.KernelIdeal.Chain.x1 m c) (Cert.KernelIdeal.Chain.x2 m c) (Cert.KernelIdeal.Chain.x3 m c)
      (Cert.KernelIdeal.Chain.x4 m c) (Cert.KernelIdeal.Chain.x5 m c) (Cert.KernelIdeal.Chain.x6 m c) (Cert.KernelIdeal.Chain.x7 m c)
      (Cert.KernelIdeal.Chain.x8 m c) (Cert.KernelIdeal.Chain.x9 m c), ?_, ?_⟩
  · exact (θ_run Cert.KernelIdeal.defs _ _).mono
      (fun r h c => ⟨(h c).1.trans (Cert.KernelIdeal.Chain.result m ρ c regions), (h c).2⟩)
      (Cert.KernelIdeal.RunMain.run_main (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9⟩ := hagree c
    rw [Cert.ReferenceIdeal.Read.val_main_v105_eq, a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
